-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S8 : Shape := ⟨1, ![8]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : IVec S8 32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S8 : Shape := ⟨1, ![8]⟩
abbrev S1x256 : Shape := ⟨2, ![1, 256]⟩
abbrev S8x1x256 : Shape := ⟨3, ![8, 1, 256]⟩
abbrev S1x1024x256 : Shape := ⟨3, ![1, 1024, 256]⟩
abbrev S1x1x256 : Shape := ⟨3, ![1, 1, 256]⟩
abbrev S1 : Shape := ⟨1, ![1]⟩
abbrev S1024x1 : Shape := ⟨2, ![1024, 1]⟩
abbrev S1024x256 : Shape := ⟨2, ![1024, 256]⟩
abbrev S8x256 : Shape := ⟨2, ![8, 256]⟩

abbrev nBuf : Space → Nat
  | .hbm => 18
  | .vmem => 12
  | .smem => 1
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .bf16⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S8x1x256, .f32⟩
  | .hbm, ⟨17, _⟩ => ⟨S8x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x1x256, .f32⟩
  | .local _ .vmem, ⟨9, _⟩ => ⟨S1x1x256, .f32⟩
  | .local _ .vmem, ⟨10, _⟩ => ⟨S1x256, .f32⟩
  | .local _ .vmem, ⟨11, _⟩ => ⟨S256x256, .f32⟩
  | .local _ .smem, ⟨0, _⟩ => ⟨S8, .i32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond2 (i : grid0.Coords) : BitVec 1 :=
  let arg1 : BitVec 32 := BitVec.ofNat 32 (i 1).val
  let c3_i32 : BitVec 32 := 3#32
  let v58 : BitVec 1 := Scalar.cmpi .eq arg1 c3_i32
  let v59 : BitVec 32 := Scalar.extui v58
  let c0_i32_27 : BitVec 32 := 0#32
  let v60 : BitVec 1 := Scalar.cmpi .ne v59 c0_i32_27
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  numel1_S1 : S1.numel = 1
  iota_S1024x1_d0_w32 : S1024x1.Iotas .tc 32 [0]
  natLt_1_32 : 1 < 32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  broadcasts_S1x256_S1024x256 : S1x256.Broadcasts S1024x256
  broadcasts_S1024x1_S1024x256 : S1024x1.Broadcasts S1024x256
  reduces_S1024x256_S256 : S1024x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S8x1x256_S8x256 : S8x1x256.ShapeCasts S8x256
  dot_S1024x256_S256x256_S1024x256_1_0_0_1_n_n_wf : DotDims.WF S1024x256 S256x256 S1024x256 [1] [0] [0] [1] [] []
  dot_S1024x256_S1024x256_S256x256_0_0_1_1_n_n_wf : DotDims.WF S1024x256 S1024x256 S256x256 [0] [0] [1] [1] [] []
  dot_S1x256_S256x256_S1x256_1_0_0_1_n_n_wf : DotDims.WF S1x256 S256x256 S1x256 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S8x1x256.size a
  hwx0_7 : ∀ i : grid0.Coords, EltTy.bits .f32 = 32 ∨ (Rect.block (s := S8x1x256) S1x1x256.size (cc0_transform_7 i) (hinb0_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev spec0_0 : Pipeline.WinSpec sig grid0.rank :=
  Pipeline.WinSpec.ofSpec (Memref.whole main_arg0) S1x1024x256.size reads0_0 false false 2 stage0_0 sem0_0 nbuf0_0 hstage0_0

abbrev spec0_1 : Pipeline.WinSpec sig grid0.rank :=
  Pipeline.WinSpec.ofSpec (Memref.whole main_v1) S256x256.size reads0_1 false true 1 stage0_1 sem0_1 nbuf0_1 hstage0_1

abbrev spec0_2 : Pipeline.WinSpec sig grid0.rank :=
  Pipeline.WinSpec.ofSpec (Memref.whole main_v6) S1x256.size reads0_2 false true 1 stage0_2 sem0_2 nbuf0_2 hstage0_2

abbrev spec0_3 : Pipeline.WinSpec sig grid0.rank :=
  Pipeline.WinSpec.ofSpec (Memref.whole main_v3) S256x256.size reads0_3 false true 1 stage0_3 sem0_3 nbuf0_3 hstage0_3

abbrev spec0_4 : Pipeline.WinSpec sig grid0.rank :=
  Pipeline.WinSpec.ofSpec (Memref.whole main_v7) S1x256.size reads0_4 false true 1 stage0_4 sem0_4 nbuf0_4 hstage0_4

abbrev spec0_5 : Pipeline.WinSpec sig grid0.rank :=
  Pipeline.WinSpec.ofSpec (Memref.whole main_v5) S256x256.size reads0_5 false true 1 stage0_5 sem0_5 nbuf0_5 hstage0_5

abbrev spec0_6 : Pipeline.WinSpec sig grid0.rank :=
  Pipeline.WinSpec.ofSpec (Memref.whole main_v8) S1x256.size reads0_6 false true 1 stage0_6 sem0_6 nbuf0_6 hstage0_6

abbrev spec0_7 : Pipeline.WinSpec sig grid0.rank :=
  Pipeline.WinSpec.ofSpec (Memref.whole main_v9) S1x1x256.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))
abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S8 : Shape := ⟨1, ![8]⟩
abbrev S4096 : Shape := ⟨1, ![4096]⟩
abbrev S1x4096 : Shape := ⟨2, ![1, 4096]⟩
abbrev S8x1 : Shape := ⟨2, ![8, 1]⟩
abbrev S8x4096 : Shape := ⟨2, ![8, 4096]⟩
abbrev S8x4096x1 : Shape := ⟨3, ![8, 4096, 1]⟩
abbrev S1x1x256 : Shape := ⟨3, ![1, 1, 256]⟩
abbrev S8x4096x4096 : Shape := ⟨3, ![8, 4096, 4096]⟩
abbrev S_ : Shape := ⟨0, ![]⟩
abbrev S8x256 : Shape := ⟨2, ![8, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8, .i32⟩
  | .hbm, ⟨8, _⟩ => ⟨S4096, .i32⟩
  | .hbm, ⟨9, _⟩ => ⟨S1x4096, .i32⟩
  | .hbm, ⟨10, _⟩ => ⟨S8x1, .i32⟩
  | .hbm, ⟨11, _⟩ => ⟨S8x4096, .i32⟩
  | .hbm, ⟨12, _⟩ => ⟨S8x4096, .i32⟩
  | .hbm, ⟨13, _⟩ => ⟨S8x4096, .i1⟩
  | .hbm, ⟨14, _⟩ => ⟨S8x4096x1, .i1⟩
  | .hbm, ⟨15, _⟩ => ⟨S8x4096x1, .f32⟩
  | .hbm, ⟨16, _⟩ => ⟨S8x4096x256, .f32⟩
  | .hbm, ⟨17, _⟩ => ⟨S1x1x256, .f32⟩
  | .hbm, ⟨18, _⟩ => ⟨S8x4096x256, .f32⟩
  | .hbm, ⟨19, _⟩ => ⟨S8x4096x256, .f32⟩
  | .hbm, ⟨20, _⟩ => ⟨S8x4096x256, .f32⟩
  | .hbm, ⟨21, _⟩ => ⟨S8x4096x256, .f32⟩
  | .hbm, ⟨22, _⟩ => ⟨S8x4096x256, .f32⟩
  | .hbm, ⟨23, _⟩ => ⟨S1x1x256, .f32⟩
  | .hbm, ⟨24, _⟩ => ⟨S8x4096x256, .f32⟩
  | .hbm, ⟨25, _⟩ => ⟨S8x4096x256, .f32⟩
  | .hbm, ⟨26, _⟩ => ⟨S8x4096x256, .f32⟩
  | .hbm, ⟨27, _⟩ => ⟨S8x4096x256, .f32⟩
  | .hbm, ⟨28, _⟩ => ⟨S8x4096x256, .f32⟩
  | .hbm, ⟨29, _⟩ => ⟨S1x1x256, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S8x4096x4096, .f32⟩
  | .hbm, ⟨35, _⟩ => ⟨S8x4096x256, .f32⟩
  | .hbm, ⟨36, _⟩ => ⟨S_, .f32⟩
  | .hbm, ⟨37, _⟩ => ⟨S8x256, .f32⟩
  | .hbm, ⟨38, _⟩ => ⟨S_, .f32⟩
  | .hbm, ⟨39, _⟩ => ⟨S8x256, .f32⟩
  | .hbm, ⟨40, _⟩ => ⟨S8x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  bcast_S8x4096_S8x4096x1_0_1 : S8x4096.BroadcastsInDim S8x4096x1 (![0, 1] : Fin 2 → Fin S8x4096x1.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S8x4096x1_S8x4096x256_0_1_2 : S8x4096x1.BroadcastsInDim S8x4096x256 (![0, 1, 2] : Fin 3 → Fin S8x4096x256.rank)
  reducesTo_S8x4096x256_S8x256_d1 : S8x4096x256.ReducesTo [1] S8x256
  h_S_ : 0 < S_.numel
  bcast_S_S8x256 : S_.BroadcastsInDim S8x256 (![] : Fin 0 → Fin S8x256.rank)
  dot_S8x4096x256_S256x256_S8x4096x256_2_1_01_0_n_n_wf : DotDims.WF S8x4096x256 S256x256 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.KPieces.lean ====
import proofs.«420189_j61933428416272_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each control case of the kernel body leaves in the two carried accumulators (the column sums of q, and kᵀ v)
  and, at a sequence's last tile, in the output block — each as the body's own arithmetic (the payload terms of the
  printed body) applied to the point's input blocks and to what the point before left.
-/
namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The length word of the point's sequence: the prefetched table read at the batch coordinate. -/
def lenWord (c : Dev nD) (i : grid0.Coords) (xt0 : TbBuf0 (F := F) c tbM0_0) : Elt F .i32 :=
  View.ld (View.read (Elt F) (View.whole main_arg7) xt0) (Rect.unit (s := S8) (k0_off1 i) S1.size (Facts₀.k0_off1_inb i))
    (Shape.Idx.first (Facts₀.numel1_S1.symm ▸ Nat.one_pos))

/-- At a sequence's first tile the column sums of q restart: zero plus this tile's sum. -/
theorem qsum_first (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : cond0_0 i) (hc1 : ¬cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0)  :
    sout0_A_0 c i arg3 harg3 arg4 harg4 arg5 harg5 arg6 harg6 arg7 harg7 arg8 harg8 arg9 harg9 arg10 harg10 arg11 harg11 arg12 harg12 hc0 hc1 x0 x1 x2 x3 x4 x5 x6 xt0  = k0_pay1 (k0_pay8 i (lenWord c i xt0) x0 x1 x2) (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 xt0 )]
  unfold kernelRun0_A
  dsimp only
  sl_unfold_words
  rw [View.canon_cons_unit_zero (S := S1x256) hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At a sequence's first tile the kᵀ v accumulator restarts: zero plus this tile's product. -/
theorem ktv_first (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : cond0_0 i) (hc1 : ¬cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0)  :
    sout0_A_1 c i arg3 harg3 arg4 harg4 arg5 harg5 arg6 harg6 arg7 harg7 arg8 harg8 arg9 harg9 arg10 harg10 arg11 harg11 arg12 harg12 hc0 hc1 x0 x1 x2 x3 x4 x5 x6 xt0  = k0_pay2 (k0_pay6 i (lenWord c i xt0)) (k0_pay9 i (lenWord c i xt0) x0 x3 x4) (k0_pay10 x0 x5) x6 (k0_pay5 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6 xt0 )]
  unfold kernelRun0_A
  dsimp only
  sl_unfold_words
  rw [View.canon_cons_unit_zero (S := S256x256) hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At a middle tile the column sums of q grow by this tile's sum. -/
theorem qsum_mid (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : ¬cond0_0 i) (hc1 : ¬cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0) (xs0 : Vec F S1x256 .f32) (xs1 : Vec F S256x256 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xt0 xs0 xs1 = k0_pay1 (k0_pay8 i (lenWord c i xt0) x0 x1 x2) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xt0 xs0 xs1)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At a middle tile the kᵀ v accumulator grows by this tile's product. -/
theorem ktv_mid (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : ¬cond0_0 i) (hc1 : ¬cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0) (xs0 : Vec F S1x256 .f32) (xs1 : Vec F S256x256 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xt0 xs0 xs1 = k0_pay2 (k0_pay6 i (lenWord c i xt0)) (k0_pay9 i (lenWord c i xt0) x0 x3 x4) (k0_pay10 x0 x5) x6 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xt0 xs0 xs1)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At the last tile the column sums of q grow by this tile's sum. -/
theorem qsum_last (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : ¬cond0_0 i) (hc1 : cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0) (xs0 : Vec F S1x256 .f32) (xs1 : Vec F S256x256 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xt0 xs0 xs1 = k0_pay1 (k0_pay8 i (lenWord c i xt0) x0 x1 x2) xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xt0 xs0 xs1)]
  unfold kernelRun0_C
  dsimp only
  sl_unfold_words
  rw [View.canon_unit_zero hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At the last tile the kᵀ v accumulator grows by this tile's product. -/
theorem ktv_last (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : ¬cond0_0 i) (hc1 : cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0) (xs0 : Vec F S1x256 .f32) (xs1 : Vec F S256x256 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xt0 xs0 xs1 = k0_pay2 (k0_pay6 i (lenWord c i xt0)) (k0_pay9 i (lenWord c i xt0) x0 x3 x4) (k0_pay10 x0 x5) x6 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xt0 xs0 xs1)]
  unfold kernelRun0_C
  dsimp only
  sl_unfold_words
  rw [View.canon_unit_zero hz2]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

/-- At the last tile the output block is the finished column sums against the finished kᵀ v, over the padded length. -/
theorem out_last (c : Dev nD) (i : grid0.Coords) (arg3 : Memref sig .tc .vmem S1x1024x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x1x256 .f32) (harg10 : arg10.IsWhole) (arg11 : Memref sig .tc .vmem S1x256 .f32) (harg11 : arg11.IsWhole) (arg12 : Memref sig .tc .vmem S256x256 .f32) (harg12 : arg12.IsWhole) (hc0 : ¬cond0_0 i) (hc1 : cond0_1 i) (x0 : Vec F S1x1024x256 .f32) (x1 : Vec F S256x256 .bf16) (x2 : Vec F S1x256 .f32) (x3 : Vec F S256x256 .bf16) (x4 : Vec F S1x256 .f32) (x5 : Vec F S256x256 .bf16) (x6 : Vec F S1x256 .f32) (xt0 : TbBuf0 (F := F) c tbM0_0) (xs0 : Vec F S1x256 .f32) (xs1 : Vec F S256x256 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xt0 xs0 xs1 = k0_pay3 (k0_pay1 (k0_pay8 i (lenWord c i xt0) x0 x1 x2) xs0) (k0_pay2 (k0_pay6 i (lenWord c i xt0)) (k0_pay9 i (lenWord c i xt0) x0 x3 x4) (k0_pay10 x0 x5) x6 xs1) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xt0 xs0 xs1)]
  unfold kernelRun0_C
  dsimp only
  sl_unfold_words
  rw [View.canon_unit_zero hz3]
  simp only [View.readAt_eq_ld, harg3.read_unread, harg4.read_unread, harg5.read_unread, harg6.read_unread,
    harg7.read_unread, harg8.read_unread, harg9.read_unread, harg11.read_unread, harg12.read_unread,
    View.ld_unit_zero (S := S1x1024x256) hz3, View.ld_unit_zero (S := S256x256) hz2, View.ld_unit_zero (S := S1x256) hz2,
    View.readCov_unit_zero (S := S1x256) _ hz2, View.readCov_unit_zero (S := S256x256) _ hz2]
  rfl

end Cert.KernelIdeal.KVal

end
-- ==== Proof.Spec.lean ====
/-
  Ragged attention without softmax, averaged over the padded query axis: the two arrangements of one sum.

  For one sequence of the batch, with masked projections q, k, v : [4096, 256] (row p is zero when position p is
  padding), the result at feature e is, up to the common division by the padded length 4096,

    attn      q k v e = ∑ p, ∑ p', (∑ f, q p f * k p' f) * v p' e      (scores first, then values, then the mean)
    factored  q k v e = ∑ f, (∑ p, q p f) * (∑ p', k p' f * v p' e)    (column sums of q against kᵀ v)

  The two agree whenever every entry is a real number (distributivity over finite sums). This module only states
  the functions; the law is in `Algebra.lean`.
-/
import Idealize.ShloMosaic.PureOps.Ideal
import Idealize.ShloMosaic.Lib.ValueIdx

noncomputable section

namespace Cert.Ragged

open Idealize.ShloMosaic Idealize.ShloMosaic.ValueIdx

/-- An extended real that is a real number (neither infinity). -/
def IsReal (z : EReal) : Prop := ∃ r : ℝ, z = (r : EReal)

/-- Position `p` is valid for a sequence whose length word is `len`: the signed comparison `p < len` of 32-bit words. -/
def validBit (len : BitVec 32) (p : ℕ) : BitVec 1 := Scalar.cmpi .slt (BitVec.ofNat 32 p) len

/-- The mask as a number: 1 at a valid position, 0 at padding. -/
def maskv (len : BitVec 32) (p : ℕ) : EReal := (((validBit len p).toNat : ℝ) : EReal)

/-- One masked linear projection: `(x_p · W_f + bias_f) · mask_p` (torch's `x @ W.T + b`, padded rows zeroed). -/
def proj (x : Fin 4096 → Fin 256 → EReal) (W : Fin 256 → Fin 256 → EReal) (bias : Fin 256 → EReal) (len : BitVec 32)
    (p : Fin 4096) (f : Fin 256) : EReal :=
  (∑ e : Fin 256, x p e * W f e + bias f) * maskv len p.val

/-- Scores first: `∑ p, ∑ p', (q_p · k_p') v_p'e`. -/
def attn (q k v : Fin 4096 → Fin 256 → EReal) (e : Fin 256) : EReal :=
  ∑ p : Fin 4096, ∑ p' : Fin 4096, (∑ f : Fin 256, q p f * k p' f) * v p' e

/-- Column sums of `q` against `kᵀ v`: `∑ f, (∑ p, q_pf) (∑ p', k_p'f v_p'e)`. -/
def factored (q k v : Fin 4096 → Fin 256 → EReal) (e : Fin 256) : EReal :=
  ∑ f : Fin 256, (∑ p : Fin 4096, q p f) * (∑ p' : Fin 4096, k p' f * v p' e)

/-- Sequence `b` of the padded batch as a matrix of rows. -/
def rowsOf (x : (⟨3, ![8, 4096, 256]⟩ : Shape).Idx → EReal) (b : Fin 8) : Fin 4096 → Fin 256 → EReal :=
  fun p e => x (ix3 b p e)

/-- A weight matrix by its two coordinates (output feature, input feature). -/
def matOf (W : (⟨2, ![256, 256]⟩ : Shape).Idx → EReal) : Fin 256 → Fin 256 → EReal := fun f e => W (ix2 f e)

/-- A bias vector by its coordinate. -/
def vecOf (v : (⟨1, ![256]⟩ : Shape).Idx → EReal) : Fin 256 → EReal := fun f => v (ix1 f)

/-- The masked projection of sequence `b`. -/
def projOf (x : (⟨3, ![8, 4096, 256]⟩ : Shape).Idx → EReal) (W : (⟨2, ![256, 256]⟩ : Shape).Idx → EReal)
    (bias : (⟨1, ![256]⟩ : Shape).Idx → EReal) (len : (⟨1, ![8]⟩ : Shape).Idx → BitVec 32) (b : Fin 8) :
    Fin 4096 → Fin 256 → EReal :=
  proj (rowsOf x b) (matOf W) (vecOf bias) (len (ix1 b))

/-- The padded length 4096 as the f32 word both programs divide by. -/
abbrev smax : EReal := Ideal.ofBits .f32 0x45800000#32

/-- The result in the factored arrangement (what the kernel accumulates). -/
def factoredResult (x : (⟨3, ![8, 4096, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal)
    (len : (⟨1, ![8]⟩ : Shape).Idx → BitVec 32) : (⟨2, ![8, 256]⟩ : Shape).Idx → EReal :=
  fun j => Ideal.div (factored (projOf x Wq bq len (j 0)) (projOf x Wk bk len (j 0)) (projOf x Wv bv len (j 0)) (j 1)) smax

/-- The result in the scores-first arrangement (what the reference computes). -/
def attnResult (x : (⟨3, ![8, 4096, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal)
    (len : (⟨1, ![8]⟩ : Shape).Idx → BitVec 32) : (⟨2, ![8, 256]⟩ : Shape).Idx → EReal :=
  fun j => Ideal.div (attn (projOf x Wq bq len (j 0)) (projOf x Wk bk len (j 0)) (projOf x Wv bv len (j 0)) (j 1)) smax

end Cert.Ragged

end
-- ==== Proof.KPayload.lean ====
/-
  The kernel body's arithmetic read at an index, over the extended reals: the mask, one masked projection of a
  tile, the raw value projection, one step of each accumulator, and the finished output row.
-/
import proofs.«420189_j61933428416272_1_alg».proof.Proof.Gen.KernelIdeal.Skeleton
import proofs.«420189_j61933428416272_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx Cert.KernelIdeal Cert.KernelIdeal.Gen

/-- A column of shape [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sums of a [1024, 256] tile, read at a column. -/
theorem colsum_apply (v : FVec Ideal S1024x256 .f32) (hφ : FKind.Formats .f32)
    (hacc : (0x00000000#32 : BitVec 32) = 0x00000000#32) (f : Fin 256) :
    multiReduction .add [0] S256 v 0x00000000#32 reduces_S1024x256_S256 hφ hacc (ix1 f) = ∑ r : Fin 1024, v (ix2 r f) := by
  refine (Ideal.multiReduction_add_single v 0x00000000#32 reduces_S1024x256_S256 hφ hacc (ix1 f)).trans ?_
  refine Finset.sum_congr rfl fun r _ => congrArg v (funext fun a => Fin.ext ?_)
  match a with
  | ⟨0, _⟩ => rfl
  | ⟨1, _⟩ => rfl

/-- A one-bit word widened to 32 bits and read as a signed integer is the bit as a natural number. -/
theorem setWidth_toInt_bit (b : BitVec 1) : ((b.setWidth 32).toInt : ℤ) = (b.toNat : ℤ) := by
  rcases BitVec.eq_zero_or_eq_one b with h | h <;> subst h <;> decide

/-- Row r of tile t is position 1024 t + r, as 32-bit words. -/
theorem pos_word (t r : ℕ) :
    IntOp.addi (BitVec.ofNat 32 r) (Scalar.muli (BitVec.ofNat 32 t) 1024#32) = BitVec.ofNat 32 (1024 * t + r) := by
  unfold IntOp.addi Scalar.muli IntOp.muli
  rw [show (1024#32 : BitVec 32) = BitVec.ofNat 32 1024 from rfl, ← BitVec.ofNat_mul, ← BitVec.ofNat_add]
  exact congrArg (BitVec.ofNat 32) (by omega)

/-- The mask of row r of tile i 1: position 1024 * tile + r against the sequence's length word. -/
theorem mask_apply (i : grid0.Coords) (w : BitVec 32) (r : Fin 1024) :
    k0_pay6 (F := Ideal) i w (ix2 r 0) = Cert.Ragged.maskv w (1024 * (i 1).val + r.val) := by
  unfold k0_pay6
  dsimp only
  refine (sitofp_apply _ _).trans ?_
  rw [extui_apply]
  have hc : cmpi .slt (addi (iota .tc S1024x1 32 [0] iota_S1024x1_d0_w32)
        (broadcast S1024x1 (Scalar.muli (BitVec.ofNat 32 (i 1).val) 1024#32))) (broadcast S1024x1 w) (ix2 r 0)
      = Cert.Ragged.validBit w (1024 * (i 1).val + r.val) := by
    show IntOp.cmpi .slt (IntOp.addi (iota .tc S1024x1 32 [0] iota_S1024x1_d0_w32 (ix2 r 0))
        (Scalar.muli (BitVec.ofNat 32 (i 1).val) 1024#32)) w = _
    rw [iota_single_apply]
    show IntOp.cmpi .slt (IntOp.addi (BitVec.ofNat 32 r.val) _) w = _
    rw [pos_word]
    rfl
  rw [hc]
  show ((((Cert.Ragged.validBit w (1024 * (i 1).val + r.val)).setWidth 32).toInt : ℝ) : EReal) = _
  unfold Cert.Ragged.maskv
  rw [setWidth_toInt_bit, Int.cast_natCast]

theorem lhs1_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs1_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs1_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs1_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A tile times a weight matrix, into zero, read at (r, f): the sum over the shared feature axis. -/
theorem mm1_apply (A : FVec Ideal S1024x256 .bf16) (B : FVec Ideal S256x256 .bf16) (r : Fin 1024) (f : Fin 256) :
    matmul dot_S1024x256_S256x256_S1024x256_1_0_0_1_n_n none A B (constant S1024x256 .f32 0x00000000#32) (ix2 r f)
      = ∑ e : Fin 256, A (ix2 r e) * B (ix2 e f) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r f) ((ValueIdx.contrEquiv1 dot_S1024x256_S256x256_S1024x256_1_0_0_1_n_n 256 rfl rfl).symm k) = ix2 r k := funext fun a => Fin.ext (by
    match a with
    | ⟨0, _⟩ => exact lhs1_0 _ _
    | ⟨1, _⟩ => exact (lhs1_1 _ _).trans hk)
  have er : dot_S1024x256_S256x256_S1024x256_1_0_0_1_n_n.rhsIdx (ix2 r f) ((ValueIdx.contrEquiv1 dot_S1024x256_S256x256_S1024x256_1_0_0_1_n_n 256 rfl rfl).symm k) = ix2 k f := funext fun a => Fin.ext (by
    match a with
    | ⟨0, _⟩ => exact (rhs1_0 _ _).trans hk
    | ⟨1, _⟩ => exact rhs1_1 _ _)
  rw [el, er]

/-- The tile as the matmuls read it: the block's one leading unit axis dropped, the format change the identity. -/
theorem pay7_apply (x0 : S1x1024x256.Idx → EReal) (r : Fin 1024) (e : Fin 256) :
    k0_pay7 (F := Ideal) x0 (ix2 r e) = x0 (ix3 0 r e) := by
  unfold k0_pay7
  show shapeCast S1024x256 x0 shapeCasts_S1x1024x256_S1024x256 (ix2 r e) = _
  exact shapeCast_1ab_ab_apply _ _ r e

/-- The v projection before its bias and mask. -/
theorem proj_v_raw_apply (x0 : S1x1024x256.Idx → EReal) (x5 : S256x256.Idx → EReal) (r : Fin 1024) (e : Fin 256) :
    k0_pay10 (F := Ideal) x0 x5 (ix2 r e) = ∑ e' : Fin 256, x0 (ix3 0 r e') * x5 (ix2 e' e) := by
  unfold k0_pay10
  rw [shapeCast_self]
  refine (mm1_apply _ _ r e).trans ?_
  exact Finset.sum_congr rfl fun e' _ => by rw [pay7_apply]

/-- One masked projection of the tile (the q projection). -/
theorem proj_q_apply (i : grid0.Coords) (w : BitVec 32) (x0 : S1x1024x256.Idx → EReal) (x1 : S256x256.Idx → EReal) (x2 : S1x256.Idx → EReal)
    (r : Fin 1024) (f : Fin 256) :
    k0_pay8 (F := Ideal) i w x0 x1 x2 (ix2 r f)
      = (∑ e : Fin 256, x0 (ix3 0 r e) * x1 (ix2 e f) + x2 (ix2 0 f)) * Cert.Ragged.maskv w (1024 * (i 1).val + r.val) := by
  unfold k0_pay8
  rw [shapeCast_self, shapeCast_self]
  refine (mulf_apply _ _ _).trans ?_
  rw [broadcastTo_a1_ab_apply, mask_apply]
  refine congrArg (· * _) ?_
  refine (addf_apply _ _ _).trans ?_
  rw [broadcastTo_1b_ab_apply]
  refine congrArg (· + _) ?_
  refine (mm1_apply _ _ r f).trans ?_
  exact Finset.sum_congr rfl fun e _ => by rw [pay7_apply]

/-- The same for the k projection. -/
theorem proj_k_apply (i : grid0.Coords) (w : BitVec 32) (x0 : S1x1024x256.Idx → EReal) (x3 : S256x256.Idx → EReal) (x4 : S1x256.Idx → EReal)
    (r : Fin 1024) (f : Fin 256) :
    k0_pay9 (F := Ideal) i w x0 x3 x4 (ix2 r f)
      = (∑ e : Fin 256, x0 (ix3 0 r e) * x3 (ix2 e f) + x4 (ix2 0 f)) * Cert.Ragged.maskv w (1024 * (i 1).val + r.val) := by
  unfold k0_pay9
  rw [shapeCast_self, shapeCast_self]
  refine (mulf_apply _ _ _).trans ?_
  rw [broadcastTo_a1_ab_apply, mask_apply]
  refine congrArg (· * _) ?_
  refine (addf_apply _ _ _).trans ?_
  rw [broadcastTo_1b_ab_apply]
  refine congrArg (· + _) ?_
  refine (mm1_apply _ _ r f).trans ?_
  exact Finset.sum_congr rfl fun e _ => by rw [pay7_apply]

theorem lhs2_0 (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem lhs2_1 (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem rhs2_0 (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem rhs2_1 (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- The transposed product of two tiles, into zero, read at (f, e): the sum over the rows of the tile. -/
theorem mm2_apply (A B : FVec Ideal S1024x256 .bf16) (f e : Fin 256) :
    matmul dot_S1024x256_S1024x256_S256x256_0_0_1_1_n_n none A B (constant S256x256 .f32 0x00000000#32) (ix2 f e)
      = ∑ r : Fin 1024, A (ix2 r f) * B (ix2 r e) := by
  simp only [matmul]
  rw [Ideal.matmul_constant_zero_apply, ← Equiv.sum_comp (ValueIdx.contrEquiv1 dot_S1024x256_S1024x256_S256x256_0_0_1_1_n_n 1024 rfl rfl).symm]
  refine Finset.sum_congr rfl fun k _ => ?_
  have hk := ValueIdx.contrEquiv1_symm_val dot_S1024x256_S1024x256_S256x256_0_0_1_1_n_n 1024 rfl rfl k
  have el : dot_S1024x256_S1024x256_S256x256_0_0_1_1_n_n.lhsIdx (ix2 f e) ((ValueIdx.contrEquiv1 dot_S1024x256_S1024x256_S256x256_0_0_1_1_n_n 1024 rfl rfl).symm k) = ix2 k f := funext fun a => Fin.ext (by
    match a with
    | ⟨0, _⟩ => exact (lhs2_0 _ _).trans hk
    | ⟨1, _⟩ => exact lhs2_1 _ _)
  have er : dot_S1024x256_S1024x256_S256x256_0_0_1_1_n_n.rhsIdx (ix2 f e) ((ValueIdx.contrEquiv1 dot_S1024x256_S1024x256_S256x256_0_0_1_1_n_n 1024 rfl rfl).symm k) = ix2 k e := funext fun a => Fin.ext (by
    match a with
    | ⟨0, _⟩ => exact (rhs2_0 _ _).trans hk
    | ⟨1, _⟩ => exact rhs2_1 _ _)
  rw [el, er]

theorem lhs3_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs3_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs3_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs3_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- A row times a matrix, into zero, read at (0, e): the sum over the shared feature axis. -/
theorem mm3_apply (A : FVec Ideal S1x256 .bf16) (B : FVec Ideal S256x256 .bf16) (u : Fin 1) (e : Fin 256) :
    matmul dot_S1x256_S256x256_S1x256_1_0_0_1_n_n none A B (constant S1x256 .f32 0x00000000#32) (ix2 u e)
      = ∑ f : Fin 256, A (ix2 u f) * B (ix2 f e) := by
  simp only [matmul]
  rw [Ideal.matmul_constant_zero_apply, ← Equiv.sum_comp (ValueIdx.contrEquiv1 dot_S1x256_S256x256_S1x256_1_0_0_1_n_n 256 rfl rfl).symm]
  refine Finset.sum_congr rfl fun k _ => ?_
  have hk := ValueIdx.contrEquiv1_symm_val dot_S1x256_S256x256_S1x256_1_0_0_1_n_n 256 rfl rfl k
  have el : dot_S1x256_S256x256_S1x256_1_0_0_1_n_n.lhsIdx (ix2 u e) ((ValueIdx.contrEquiv1 dot_S1x256_S256x256_S1x256_1_0_0_1_n_n 256 rfl rfl).symm k) = ix2 u k := funext fun a => Fin.ext (by
    match a with
    | ⟨0, _⟩ => exact lhs3_0 _ _
    | ⟨1, _⟩ => exact (lhs3_1 _ _).trans hk)
  have er : dot_S1x256_S256x256_S1x256_1_0_0_1_n_n.rhsIdx (ix2 u e) ((ValueIdx.contrEquiv1 dot_S1x256_S256x256_S1x256_1_0_0_1_n_n 256 rfl rfl).symm k) = ix2 k e := funext fun a => Fin.ext (by
    match a with
    | ⟨0, _⟩ => exact (rhs3_0 _ _).trans hk
    | ⟨1, _⟩ => exact rhs3_1 _ _)
  rw [el, er]

/-- One step of the column sums of q: what was there plus the tile's column sum. -/
theorem qsum_step_apply (v24 : S1024x256.Idx → EReal) (v43 : S1x256.Idx → EReal) (f : Fin 256) :
    k0_pay1 (F := Ideal) v24 v43 (ix2 0 f) = v43 (ix2 0 f) + ∑ r : Fin 1024, v24 (ix2 r f) := by
  unfold k0_pay1
  dsimp only
  rw [shapeCast_self]
  refine (addf_apply _ _ _).trans ?_
  rw [shapeCast_a_1a_apply, colsum_apply]

/-- One step of kᵀ v: what was there plus the sum over the tile's rows of k_rf · ((vraw_re + bias_e) · mask_r). -/
theorem ktv_step_apply (v12 : S1024x1.Idx → EReal) (v33 v36 : S1024x256.Idx → EReal) (v37 : S1x256.Idx → EReal) (v53 : S256x256.Idx → EReal)
    (f e : Fin 256) :
    k0_pay2 (F := Ideal) v12 v33 v36 v37 v53 (ix2 f e)
      = v53 (ix2 f e) + ∑ r : Fin 1024, v33 (ix2 r f) * ((v36 (ix2 r e) + v37 (ix2 0 e)) * v12 (ix2 r 0)) := by
  unfold k0_pay2
  rw [shapeCast_self, shapeCast_self]
  refine (addf_apply _ _ _).trans ?_
  refine congrArg (_ + ·) ?_
  refine (mm2_apply _ _ f e).trans ?_
  refine Finset.sum_congr rfl fun r _ => ?_
  show v33 (ix2 r f) * (mulf (F := Ideal) (s := S1024x256) (φ := .f32)
      (addf v36 (broadcastTo S1024x256 v37 broadcasts_S1x256_S1024x256))
      (broadcastTo S1024x256 v12 broadcasts_S1024x1_S1024x256) (ix2 r e)) = _
  refine congrArg (_ * ·) ?_
  refine (mulf_apply _ _ _).trans ?_
  rw [broadcastTo_a1_ab_apply]
  refine congrArg (· * _) ?_
  refine (addf_apply _ _ _).trans ?_
  rw [broadcastTo_1b_ab_apply]

/-- The finished output row: the column sums against kᵀ v, over the padded length. -/
theorem out_apply (v61 : S1x256.Idx → EReal) (v63 : S256x256.Idx → EReal) (e : Fin 256) :
    k0_pay3 (F := Ideal) v61 v63 (ix3 0 0 e) = Ideal.div (∑ f : Fin 256, v61 (ix2 0 f) * v63 (ix2 f e)) Cert.Ragged.smax := by
  unfold k0_pay3
  rw [shapeCast_ab_1ab_apply]
  refine (divf_apply _ _ _).trans ?_
  refine congrArg (Ideal.div · Cert.Ragged.smax) ?_
  exact mm3_apply _ _ 0 e

/-- The reset value of the column sums. -/
theorem zero_row_apply (f : Fin 256) : k0_pay4 (F := Ideal) (ix2 0 f) = 0 := by
  unfold k0_pay4
  rw [shapeCast_self]
  exact Ideal.ofBits_zero_f32

/-- The reset value of kᵀ v. -/
theorem zero_mat_apply (f e : Fin 256) : k0_pay5 (F := Ideal) (ix2 f e) = 0 := by
  unfold k0_pay5
  rw [shapeCast_self]
  exact Ideal.ofBits_zero_f32

end Cert.KernelIdeal.KVal

end
-- ==== Proof.KTiles.lean ====
import proofs.«420189_j61933428416272_1_alg».proof.Proof.Gen.KernelIdeal.Frame
import Idealize.ShloMosaic.Lib.Pipeline.Value
import Idealize.ShloMosaic.Lib.Tactic
import proofs.«420189_j61933428416272_1_alg».proof.Proof.KPieces
import proofs.«420189_j61933428416272_1_alg».proof.Proof.KPayload
import proofs.«420189_j61933428416272_1_alg».proof.Proof.Spec
import Idealize.ShloMosaic.Lib.ValueIdx
import Idealize.ShloMosaic.Lib.ValueLayout
import Idealize.ShloMosaic.Lib.StableHlo.Run
set_option maxRecDepth 16384

noncomputable section

open Idealize.ShloMosaic Idealize.ShloMosaic.TcCoe Idealize.SL.Sem
open Idealize.ShloMosaic.Pipeline (Dat)

/-!
  What the body sees at grid point `t` (sequence `t / 4`, tile `t % 4`), in terms of the argument arrays: the tile of
  `x` (rows `1024 * (t % 4) + r` of the sequence), the transposed weights and the bias rows (whole at every point), the
  sequence's length word; hence the tile of each masked projection is the projection's rows `1024 * (t % 4) + r`.
-/
namespace Cert.KernelIdeal.KVal

open Cert.KernelIdeal Cert.KernelIdeal.Gen Idealize.ShloMosaic.ValueIdx Cert.Ragged

variable (m : (ℓ : Loc nD τ sig) → Buf (Elt Ideal) ℓ) (hO : Ok m) (c : Dev nD)

/-! ## The windows' blocks -/

theorem idx0_facts : ∀ t : Fin grid0.N, cc0_transform_0 (grid0.coords t) 0 = t.val / 4 ∧ cc0_transform_0 (grid0.coords t) 1 = t.val % 4
    ∧ cc0_transform_0 (grid0.coords t) 2 = 0 := by decide +kernel

/-- Row `r` of the tile of `x` at point `t` is row `1024 * (t % 4) + r` of sequence `t / 4`. -/
theorem blk0_apply (t : Fin (cfgM m hO).N) (b : Fin 8) (p : Fin 4096) (r : Fin 1024) (e : Fin 256)
    (hb : b.val = t.val / 4) (hp : p.val = 1024 * (t.val % 4) + r.val) :
    (iblk m hO c 0 t : S1x1024x256.Idx → EReal) (ix3 0 r e) = (V m c main_arg0 : S8x4096x256.Idx → EReal) (ix3 b p e) := by
  unfold iblk
  show V m c main_arg0 ((((cfgM m hO).win 0).blk t).view.emb (ix3 0 r e)) = V m c main_arg0 (ix3 b p e)
  refine congrArg (V m c main_arg0) ?_
  funext a
  apply Fin.ext
  have h := idx0_facts t
  match a with
  | ⟨0, _⟩ => show cc0_transform_0 (grid0.coords t) 0 * 1 + 1 * 0 = b.val; rw [h.1, hb]; omega
  | ⟨1, _⟩ => show cc0_transform_0 (grid0.coords t) 1 * 1024 + 1 * r.val = p.val; rw [h.2.1, hp]; omega
  | ⟨2, _⟩ => show cc0_transform_0 (grid0.coords t) 2 * 256 + 1 * e.val = e.val; rw [h.2.2]; omega

theorem idx1_facts : ∀ t : Fin grid0.N, cc0_transform_1 (grid0.coords t) 0 = 0 ∧ cc0_transform_1 (grid0.coords t) 1 = 0 := by decide +kernel

theorem blk1_apply (t : Fin (cfgM m hO).N) (a : Fin 256) (b : Fin 256) :
    (iblk m hO c 1 t : S256x256.Idx → EReal) (ix2 a b) = (V m c main_v1 : S256x256.Idx → EReal) (ix2 a b) := by
  unfold iblk
  show V m c main_v1 ((((cfgM m hO).win 1).blk t).view.emb (ix2 a b)) = V m c main_v1 (ix2 a b)
  refine congrArg (V m c main_v1) ?_
  funext ax
  apply Fin.ext
  have h := idx1_facts t
  match ax with
  | ⟨0, _⟩ => show cc0_transform_1 (grid0.coords t) 0 * 256 + 1 * a.val = a.val; rw [h.1]; omega
  | ⟨1, _⟩ => show cc0_transform_1 (grid0.coords t) 1 * 256 + 1 * b.val = b.val; rw [h.2]; omega

/-- Window 1's block is its whole array at every point. -/
theorem blk1_eq (t : Fin (cfgM m hO).N) :
    (iblk m hO c 1 t : S256x256.Idx → EReal) = (V m c main_v1 : S256x256.Idx → EReal) :=
  funext fun (j : S256x256.Idx) => by rw [eq_ix2 j]; exact blk1_apply m hO c t (j 0) (j 1)

theorem idx2_facts : ∀ t : Fin grid0.N, cc0_transform_2 (grid0.coords t) 0 = 0 ∧ cc0_transform_2 (grid0.coords t) 1 = 0 := by decide +kernel

theorem blk2_apply (t : Fin (cfgM m hO).N) (a : Fin 1) (b : Fin 256) :
    (iblk m hO c 2 t : S1x256.Idx → EReal) (ix2 a b) = (V m c main_v6 : S1x256.Idx → EReal) (ix2 a b) := by
  unfold iblk
  show V m c main_v6 ((((cfgM m hO).win 2).blk t).view.emb (ix2 a b)) = V m c main_v6 (ix2 a b)
  refine congrArg (V m c main_v6) ?_
  funext ax
  apply Fin.ext
  have h := idx2_facts t
  match ax with
  | ⟨0, _⟩ => show cc0_transform_2 (grid0.coords t) 0 * 1 + 1 * a.val = a.val; rw [h.1]; omega
  | ⟨1, _⟩ => show cc0_transform_2 (grid0.coords t) 1 * 256 + 1 * b.val = b.val; rw [h.2]; omega

/-- Window 2's block is its whole array at every point. -/
theorem blk2_eq (t : Fin (cfgM m hO).N) :
    (iblk m hO c 2 t : S1x256.Idx → EReal) = (V m c main_v6 : S1x256.Idx → EReal) :=
  funext fun (j : S1x256.Idx) => by rw [eq_ix2 j]; exact blk2_apply m hO c t (j 0) (j 1)

theorem idx3_facts : ∀ t : Fin grid0.N, cc0_transform_3 (grid0.coords t) 0 = 0 ∧ cc0_transform_3 (grid0.coords t) 1 = 0 := by decide +kernel

theorem blk3_apply (t : Fin (cfgM m hO).N) (a : Fin 256) (b : Fin 256) :
    (iblk m hO c 3 t : S256x256.Idx → EReal) (ix2 a b) = (V m c main_v3 : S256x256.Idx → EReal) (ix2 a b) := by
  unfold iblk
  show V m c main_v3 ((((cfgM m hO).win 3).blk t).view.emb (ix2 a b)) = V m c main_v3 (ix2 a b)
  refine congrArg (V m c main_v3) ?_
  funext ax
  apply Fin.ext
  have h := idx3_facts t
  match ax with
  | ⟨0, _⟩ => show cc0_transform_3 (grid0.coords t) 0 * 256 + 1 * a.val = a.val; rw [h.1]; omega
  | ⟨1, _⟩ => show cc0_transform_3 (grid0.coords t) 1 * 256 + 1 * b.val = b.val; rw [h.2]; omega

/-- Window 3's block is its whole array at every point. -/
theorem blk3_eq (t : Fin (cfgM m hO).N) :
    (iblk m hO c 3 t : S256x256.Idx → EReal) = (V m c main_v3 : S256x256.Idx → EReal) :=
  funext fun (j : S256x256.Idx) => by rw [eq_ix2 j]; exact blk3_apply m hO c t (j 0) (j 1)

theorem idx4_facts : ∀ t : Fin grid0.N, cc0_transform_4 (grid0.coords t) 0 = 0 ∧ cc0_transform_4 (grid0.coords t) 1 = 0 := by decide +kernel

theorem blk4_apply (t : Fin (cfgM m hO).N) (a : Fin 1) (b : Fin 256) :
    (iblk m hO c 4 t : S1x256.Idx → EReal) (ix2 a b) = (V m c main_v7 : S1x256.Idx → EReal) (ix2 a b) := by
  unfold iblk
  show V m c main_v7 ((((cfgM m hO).win 4).blk t).view.emb (ix2 a b)) = V m c main_v7 (ix2 a b)
  refine congrArg (V m c main_v7) ?_
  funext ax
  apply Fin.ext
  have h := idx4_facts t
  match ax with
  | ⟨0, _⟩ => show cc0_transform_4 (grid0.coords t) 0 * 1 + 1 * a.val = a.val; rw [h.1]; omega
  | ⟨1, _⟩ => show cc0_transform_4 (grid0.coords t) 1 * 256 + 1 * b.val = b.val; rw [h.2]; omega

/-- Window 4's block is its whole array at every point. -/
theorem blk4_eq (t : Fin (cfgM m hO).N) :
    (iblk m hO c 4 t : S1x256.Idx → EReal) = (V m c main_v7 : S1x256.Idx → EReal) :=
  funext fun (j : S1x256.Idx) => by rw [eq_ix2 j]; exact blk4_apply m hO c t (j 0) (j 1)

theorem idx5_facts : ∀ t : Fin grid0.N, cc0_transform_5 (grid0.coords t) 0 = 0 ∧ cc0_transform_5 (grid0.coords t) 1 = 0 := by decide +kernel

theorem blk5_apply (t : Fin (cfgM m hO).N) (a : Fin 256) (b : Fin 256) :
    (iblk m hO c 5 t : S256x256.Idx → EReal) (ix2 a b) = (V m c main_v5 : S256x256.Idx → EReal) (ix2 a b) := by
  unfold iblk
  show V m c main_v5 ((((cfgM m hO).win 5).blk t).view.emb (ix2 a b)) = V m c main_v5 (ix2 a b)
  refine congrArg (V m c main_v5) ?_
  funext ax
  apply Fin.ext
  have h := idx5_facts t
  match ax with
  | ⟨0, _⟩ => show cc0_transform_5 (grid0.coords t) 0 * 256 + 1 * a.val = a.val; rw [h.1]; omega
  | ⟨1, _⟩ => show cc0_transform_5 (grid0.coords t) 1 * 256 + 1 * b.val = b.val; rw [h.2]; omega

/-- Window 5's block is its whole array at every point. -/
theorem blk5_eq (t : Fin (cfgM m hO).N) :
    (iblk m hO c 5 t : S256x256.Idx → EReal) = (V m c main_v5 : S256x256.Idx → EReal) :=
  funext fun (j : S256x256.Idx) => by rw [eq_ix2 j]; exact blk5_apply m hO c t (j 0) (j 1)

theorem idx6_facts : ∀ t : Fin grid0.N, cc0_transform_6 (grid0.coords t) 0 = 0 ∧ cc0_transform_6 (grid0.coords t) 1 = 0 := by decide +kernel

theorem blk6_apply (t : Fin (cfgM m hO).N) (a : Fin 1) (b : Fin 256) :
    (iblk m hO c 6 t : S1x256.Idx → EReal) (ix2 a b) = (V m c main_v8 : S1x256.Idx → EReal) (ix2 a b) := by
  unfold iblk
  show V m c main_v8 ((((cfgM m hO).win 6).blk t).view.emb (ix2 a b)) = V m c main_v8 (ix2 a b)
  refine congrArg (V m c main_v8) ?_
  funext ax
  apply Fin.ext
  have h := idx6_facts t
  match ax with
  | ⟨0, _⟩ => show cc0_transform_6 (grid0.coords t) 0 * 1 + 1 * a.val = a.val; rw [h.1]; omega
  | ⟨1, _⟩ => show cc0_transform_6 (grid0.coords t) 1 * 256 + 1 * b.val = b.val; rw [h.2]; omega

/-- Window 6's block is its whole array at every point. -/
theorem blk6_eq (t : Fin (cfgM m hO).N) :
    (iblk m hO c 6 t : S1x256.Idx → EReal) = (V m c main_v8 : S1x256.Idx → EReal) :=
  funext fun (j : S1x256.Idx) => by rw [eq_ix2 j]; exact blk6_apply m hO c t (j 0) (j 1)

/-! ## The host operations before the region -/

theorem main_v1_fn : (V m c main_v1 : S256x256.Idx → EReal)
    = truncf (F := Ideal) .bf16 (transpose S256x256 [1, 0] (m ((c : Thread nD τ).loc main_arg1)) Facts₀.transposes_S256x256_S256x256_1_0) Facts₀.bitsLt_bf16_f32 := by
  show StableHlo.after hostOps0 (fun b => m (c, b)) (Proc.devRef .tc main_v1) = _
  after_results

/-- The staged weight is the transpose: entry (e, f) is the argument's entry (f, e). -/
theorem main_v1_apply (e f : Fin 256) :
    (V m c main_v1 : S256x256.Idx → EReal) (ix2 e f) = ((m ((c : Thread nD τ).loc main_arg1)) : S256x256.Idx → EReal) (ix2 f e) := by
  rw [main_v1_fn]
  exact transpose_ix2_apply (a := 256) (b := 256) _ _ e f

theorem main_v3_fn : (V m c main_v3 : S256x256.Idx → EReal)
    = truncf (F := Ideal) .bf16 (transpose S256x256 [1, 0] (m ((c : Thread nD τ).loc main_arg3)) Facts₀.transposes_S256x256_S256x256_1_0) Facts₀.bitsLt_bf16_f32 := by
  show StableHlo.after hostOps0 (fun b => m (c, b)) (Proc.devRef .tc main_v3) = _
  after_results

/-- The staged weight is the transpose: entry (e, f) is the argument's entry (f, e). -/
theorem main_v3_apply (e f : Fin 256) :
    (V m c main_v3 : S256x256.Idx → EReal) (ix2 e f) = ((m ((c : Thread nD τ).loc main_arg3)) : S256x256.Idx → EReal) (ix2 f e) := by
  rw [main_v3_fn]
  exact transpose_ix2_apply (a := 256) (b := 256) _ _ e f

theorem main_v5_fn : (V m c main_v5 : S256x256.Idx → EReal)
    = truncf (F := Ideal) .bf16 (transpose S256x256 [1, 0] (m ((c : Thread nD τ).loc main_arg5)) Facts₀.transposes_S256x256_S256x256_1_0) Facts₀.bitsLt_bf16_f32 := by
  show StableHlo.after hostOps0 (fun b => m (c, b)) (Proc.devRef .tc main_v5) = _
  after_results

/-- The staged weight is the transpose: entry (e, f) is the argument's entry (f, e). -/
theorem main_v5_apply (e f : Fin 256) :
    (V m c main_v5 : S256x256.Idx → EReal) (ix2 e f) = ((m ((c : Thread nD τ).loc main_arg5)) : S256x256.Idx → EReal) (ix2 f e) := by
  rw [main_v5_fn]
  exact transpose_ix2_apply (a := 256) (b := 256) _ _ e f

theorem main_v6_fn : (V m c main_v6 : S1x256.Idx → EReal) = shapeCast S1x256 (m ((c : Thread nD τ).loc main_arg2)) Facts₀.shapeCasts_S256_S1x256 := by
  show StableHlo.after hostOps0 (fun b => m (c, b)) (Proc.devRef .tc main_v6) = _
  after_results
  rfl

/-- The staged bias row is the bias vector. -/
theorem main_v6_apply (u : Fin 1) (f : Fin 256) :
    (V m c main_v6 : S1x256.Idx → EReal) (ix2 u f) = ((m ((c : Thread nD τ).loc main_arg2)) : S256.Idx → EReal) (ix1 f) := by
  rw [main_v6_fn]
  exact shapeCast_a_1a_apply (a := 256) _ _ u f

theorem main_v7_fn : (V m c main_v7 : S1x256.Idx → EReal) = shapeCast S1x256 (m ((c : Thread nD τ).loc main_arg4)) Facts₀.shapeCasts_S256_S1x256 := by
  show StableHlo.after hostOps0 (fun b => m (c, b)) (Proc.devRef .tc main_v7) = _
  after_results
  rfl

/-- The staged bias row is the bias vector. -/
theorem main_v7_apply (u : Fin 1) (f : Fin 256) :
    (V m c main_v7 : S1x256.Idx → EReal) (ix2 u f) = ((m ((c : Thread nD τ).loc main_arg4)) : S256.Idx → EReal) (ix1 f) := by
  rw [main_v7_fn]
  exact shapeCast_a_1a_apply (a := 256) _ _ u f

theorem main_v8_fn : (V m c main_v8 : S1x256.Idx → EReal) = shapeCast S1x256 (m ((c : Thread nD τ).loc main_arg6)) Facts₀.shapeCasts_S256_S1x256 := by
  show StableHlo.after hostOps0 (fun b => m (c, b)) (Proc.devRef .tc main_v8) = _
  after_results
  rfl

/-- The staged bias row is the bias vector. -/
theorem main_v8_apply (u : Fin 1) (f : Fin 256) :
    (V m c main_v8 : S1x256.Idx → EReal) (ix2 u f) = ((m ((c : Thread nD τ).loc main_arg6)) : S256.Idx → EReal) (ix1 f) := by
  rw [main_v8_fn]
  exact shapeCast_a_1a_apply (a := 256) _ _ u f

/-! ## The length word -/

theorem off_facts : ∀ t : Fin grid0.N, k0_off1 (grid0.coords t) 0 = t.val / 4 := by decide +kernel

/-- The length word the body reads at a point is the length of the point's sequence. -/
theorem lenWord_eq (t : Fin (cfgM m hO).N) (b : Fin 8) (hb : b.val = t.val / 4) :
    lenWord c (grid0.coords t) (tbl m 0) = ((m ((c : Thread nD τ).loc main_arg7)) : S8.Idx → BitVec 32) (ix1 b) := by
  obtain rfl : c = 0 := Subsingleton.elim _ _
  unfold lenWord
  show (V m (0 : Dev nD) main_arg7 : S8.Idx → BitVec 32)
      ((Rect.unit (s := S8) (k0_off1 (grid0.coords t)) S1.size (Facts₀.k0_off1_inb (grid0.coords t))).idx (Shape.Idx.first _)) = _
  rw [V_main_arg7]
  refine congrArg _ ?_
  funext a
  apply Fin.ext
  match a with
  | ⟨0, _⟩ =>
    show k0_off1 (grid0.coords t) 0 + 1 * 0 = b.val
    rw [off_facts t, hb]; omega

theorem tile_facts : ∀ t : Fin grid0.N, (grid0.coords t 1).val = t.val % 4 := by decide +kernel

/-! ## The argument arrays, and the three masked projections of a sequence -/

/-- The padded batch. -/
abbrev aX : S8x4096x256.Idx → EReal := (m ((c : Thread nD τ).loc main_arg0))
abbrev aWq : S256x256.Idx → EReal := (m ((c : Thread nD τ).loc main_arg1))
abbrev abq : S256.Idx → EReal := (m ((c : Thread nD τ).loc main_arg2))
abbrev aWk : S256x256.Idx → EReal := (m ((c : Thread nD τ).loc main_arg3))
abbrev abk : S256.Idx → EReal := (m ((c : Thread nD τ).loc main_arg4))
abbrev aWv : S256x256.Idx → EReal := (m ((c : Thread nD τ).loc main_arg5))
abbrev abv : S256.Idx → EReal := (m ((c : Thread nD τ).loc main_arg6))
/-- The sequences' length words. -/
abbrev aLen : S8.Idx → BitVec 32 := (m ((c : Thread nD τ).loc main_arg7))

/-- The masked q, k and v projections of sequence `b`. -/
def seqQ (b : Fin 8) : Fin 4096 → Fin 256 → EReal := projOf (aX m c) (aWq m c) (abq m c) (aLen m c) b
def seqK (b : Fin 8) : Fin 4096 → Fin 256 → EReal := projOf (aX m c) (aWk m c) (abk m c) (aLen m c) b
def seqV (b : Fin 8) : Fin 4096 → Fin 256 → EReal := projOf (aX m c) (aWv m c) (abv m c) (aLen m c) b

/-! ## The tiles of the three projections -/

/-- Row `r` of the q tile at point `t` is row `1024 * (t % 4) + r` of the sequence's q projection. -/
theorem qtile_apply (t : Fin (cfgM m hO).N) (b : Fin 8) (hb : b.val = t.val / 4) (r : Fin 1024) (p : Fin 4096)
    (hp : p.val = 1024 * (t.val % 4) + r.val) (f : Fin 256) :
    k0_pay8 (F := Ideal) (grid0.coords t) (lenWord c (grid0.coords t) (tbl m 0)) (iblk m hO c 0 t) (iblk m hO c 1 t) (iblk m hO c 2 t) (ix2 r f) = seqQ m c b p f := by
  refine (proj_q_apply (grid0.coords t) (lenWord c (grid0.coords t) (tbl m 0)) (iblk m hO c 0 t) (iblk m hO c 1 t) (iblk m hO c 2 t) r f).trans ?_
  have e0 : ∀ e : Fin 256, ((iblk m hO c 0 t) : S1x1024x256.Idx → EReal) (ix3 0 r e) = aX m c (ix3 b p e) :=
    fun e => (blk0_apply m hO c t b p r e hb hp).trans (congrFun (V_main_arg0 m c) _)
  have e1 : ∀ e : Fin 256, ((iblk m hO c 1 t) : S256x256.Idx → EReal) (ix2 e f) = aWq m c (ix2 f e) :=
    fun e => (blk1_apply m hO c t e f).trans (main_v1_apply m c e f)
  have e2 : ((iblk m hO c 2 t) : S1x256.Idx → EReal) (ix2 0 f) = abq m c (ix1 f) :=
    (blk2_apply m hO c t 0 f).trans (main_v6_apply m c 0 f)
  unfold seqQ projOf proj rowsOf matOf vecOf
  refine congrArg₂ (· * ·) (congrArg₂ (· + ·) (Finset.sum_congr rfl fun e _ => congrArg₂ (· * ·) (e0 e) (e1 e)) e2) ?_
  rw [lenWord_eq m hO c t b hb, tile_facts t, ← hp]

/-- The same for the k projection. -/
theorem ktile_apply (t : Fin (cfgM m hO).N) (b : Fin 8) (hb : b.val = t.val / 4) (r : Fin 1024) (p : Fin 4096)
    (hp : p.val = 1024 * (t.val % 4) + r.val) (f : Fin 256) :
    k0_pay9 (F := Ideal) (grid0.coords t) (lenWord c (grid0.coords t) (tbl m 0)) (iblk m hO c 0 t) (iblk m hO c 3 t) (iblk m hO c 4 t) (ix2 r f) = seqK m c b p f := by
  refine (proj_k_apply (grid0.coords t) (lenWord c (grid0.coords t) (tbl m 0)) (iblk m hO c 0 t) (iblk m hO c 3 t) (iblk m hO c 4 t) r f).trans ?_
  have e0 : ∀ e : Fin 256, ((iblk m hO c 0 t) : S1x1024x256.Idx → EReal) (ix3 0 r e) = aX m c (ix3 b p e) :=
    fun e => (blk0_apply m hO c t b p r e hb hp).trans (congrFun (V_main_arg0 m c) _)
  have e1 : ∀ e : Fin 256, ((iblk m hO c 3 t) : S256x256.Idx → EReal) (ix2 e f) = aWk m c (ix2 f e) :=
    fun e => (blk3_apply m hO c t e f).trans (main_v3_apply m c e f)
  have e2 : ((iblk m hO c 4 t) : S1x256.Idx → EReal) (ix2 0 f) = abk m c (ix1 f) :=
    (blk4_apply m hO c t 0 f).trans (main_v7_apply m c 0 f)
  unfold seqK projOf proj rowsOf matOf vecOf
  refine congrArg₂ (· * ·) (congrArg₂ (· + ·) (Finset.sum_congr rfl fun e _ => congrArg₂ (· * ·) (e0 e) (e1 e)) e2) ?_
  rw [lenWord_eq m hO c t b hb, tile_facts t, ← hp]

/-- The bias row of the v projection as the body loads it at point `t`. -/
abbrev bvRow (t : Fin (cfgM m hO).N) : S1x256.Idx → EReal := iblk m hO c 6 t

/-- The v tile as the body forms it inside the kᵀ v step (raw projection, plus bias, times mask). -/
theorem vtile_apply (t : Fin (cfgM m hO).N) (b : Fin 8) (hb : b.val = t.val / 4) (r : Fin 1024) (p : Fin 4096)
    (hp : p.val = 1024 * (t.val % 4) + r.val) (e : Fin 256) :
    (k0_pay10 (F := Ideal) (iblk m hO c 0 t) (iblk m hO c 5 t) (ix2 r e) + bvRow m hO c t (ix2 0 e))
        * k0_pay6 (F := Ideal) (grid0.coords t) (lenWord c (grid0.coords t) (tbl m 0)) (ix2 r 0) = seqV m c b p e := by
  refine (congrArg₂ (· * ·) (congrArg₂ (· + ·) (proj_v_raw_apply (iblk m hO c 0 t) (iblk m hO c 5 t) r e) rfl)
    (mask_apply (grid0.coords t) (lenWord c (grid0.coords t) (tbl m 0)) r)).trans ?_
  have e0 : ∀ e' : Fin 256, ((iblk m hO c 0 t) : S1x1024x256.Idx → EReal) (ix3 0 r e') = aX m c (ix3 b p e') :=
    fun e' => (blk0_apply m hO c t b p r e' hb hp).trans (congrFun (V_main_arg0 m c) _)
  have e1 : ∀ e' : Fin 256, ((iblk m hO c 5 t) : S256x256.Idx → EReal) (ix2 e' e) = aWv m c (ix2 e e') :=
    fun e' => (blk5_apply m hO c t e' e).trans (main_v5_apply m c e' e)
  have e2 : ((iblk m hO c 6 t) : S1x256.Idx → EReal) (ix2 0 e) = abv m c (ix1 e) :=
    (blk6_apply m hO c t 0 e).trans (main_v8_apply m c 0 e)
  unfold seqV projOf proj rowsOf matOf vecOf
  refine congrArg₂ (· * ·) (congrArg₂ (· + ·) (Finset.sum_congr rfl fun e' _ => congrArg₂ (· * ·) (e0 e') (e1 e')) e2) ?_
  rw [lenWord_eq m hO c t b hb, tile_facts t, ← hp]

/-! ## One step of each accumulator -/

/-- Tile `j`'s contribution to the column sums of q (zero beyond the four tiles). -/
def tileQ (b : Fin 8) (f : Fin 256) (j : ℕ) : EReal :=
  if h : j < 4 then ∑ r : Fin 1024, seqQ m c b ⟨1024 * j + r.val, by have := r.isLt; omega⟩ f else 0

/-- Tile `j`'s contribution to kᵀ v. -/
def tileM (b : Fin 8) (f e : Fin 256) (j : ℕ) : EReal :=
  if h : j < 4 then ∑ r : Fin 1024, seqK m c b ⟨1024 * j + r.val, by have := r.isLt; omega⟩ f
      * seqV m c b ⟨1024 * j + r.val, by have := r.isLt; omega⟩ e else 0

/-- The column-sum step at point `t` adds tile `t % 4`'s contribution to what was there. -/
theorem qstep_apply (t : Fin (cfgM m hO).N) (b : Fin 8) (hb : b.val = t.val / 4) (acc : S1x256.Idx → EReal) (f : Fin 256) :
    k0_pay1 (F := Ideal) (k0_pay8 (F := Ideal) (grid0.coords t) (lenWord c (grid0.coords t) (tbl m 0)) (iblk m hO c 0 t) (iblk m hO c 1 t) (iblk m hO c 2 t)) acc (ix2 0 f)
      = acc (ix2 0 f) + tileQ m c b f (t.val % 4) := by
  refine (qsum_step_apply (k0_pay8 (F := Ideal) (grid0.coords t) (lenWord c (grid0.coords t) (tbl m 0)) (iblk m hO c 0 t) (iblk m hO c 1 t) (iblk m hO c 2 t)) acc f).trans ?_
  refine congrArg (acc (ix2 0 f) + ·) ?_
  have h4 : t.val % 4 < 4 := Nat.mod_lt _ (by decide)
  unfold tileQ
  rw [dif_pos h4]
  exact Finset.sum_congr rfl fun r _ => qtile_apply m hO c t b hb r ⟨1024 * (t.val % 4) + r.val, by have := r.isLt; omega⟩ rfl f

/-- The kᵀ v step at point `t` adds tile `t % 4`'s contribution to what was there. -/
theorem mstep_apply (t : Fin (cfgM m hO).N) (b : Fin 8) (hb : b.val = t.val / 4) (acc : S256x256.Idx → EReal) (f e : Fin 256) :
    k0_pay2 (F := Ideal) (k0_pay6 (F := Ideal) (grid0.coords t) (lenWord c (grid0.coords t) (tbl m 0)))
        (k0_pay9 (F := Ideal) (grid0.coords t) (lenWord c (grid0.coords t) (tbl m 0)) (iblk m hO c 0 t) (iblk m hO c 3 t) (iblk m hO c 4 t)) (k0_pay10 (F := Ideal) (iblk m hO c 0 t) (iblk m hO c 5 t)) (iblk m hO c 6 t) acc (ix2 f e)
      = acc (ix2 f e) + tileM m c b f e (t.val % 4) := by
  refine (ktv_step_apply (k0_pay6 (F := Ideal) (grid0.coords t) (lenWord c (grid0.coords t) (tbl m 0)))
    (k0_pay9 (F := Ideal) (grid0.coords t) (lenWord c (grid0.coords t) (tbl m 0)) (iblk m hO c 0 t) (iblk m hO c 3 t) (iblk m hO c 4 t)) (k0_pay10 (F := Ideal) (iblk m hO c 0 t) (iblk m hO c 5 t)) (iblk m hO c 6 t) acc f e).trans ?_
  refine congrArg (acc (ix2 f e) + ·) ?_
  have h4 : t.val % 4 < 4 := Nat.mod_lt _ (by decide)
  unfold tileM
  rw [dif_pos h4]
  exact Finset.sum_congr rfl fun r _ => congrArg₂ (· * ·)
    (ktile_apply m hO c t b hb r ⟨1024 * (t.val % 4) + r.val, by have := r.isLt; omega⟩ rfl f)
    (vtile_apply m hO c t b hb r ⟨1024 * (t.val % 4) + r.val, by have := r.isLt; omega⟩ rfl e)

end Cert.KernelIdeal.KVal

end
-- ==== Proof.Algebra.lean ====
/-
  The law that joins the two arrangements: over real entries,
    ∑ f, (∑ p, q p f) * (∑ p', k p' f * v p' e) = ∑ p, ∑ p', (∑ f, q p f * k p' f) * v p' e
  (distribute both products over the sums, then exchange the order of summation). On the extended reals
  distributivity fails at the infinities, so the hypothesis that every entry is real is used.
-/
import proofs.«420189_j61933428416272_1_alg».proof.Proof.Spec

noncomputable section

namespace Cert.Ragged

open Idealize.ShloMosaic Idealize.ShloMosaic.ValueIdx

theorem maskv_isReal (len : BitVec 32) (p : ℕ) : IsReal (maskv len p) := ⟨_, rfl⟩

/-- The inclusion of the reals in the extended reals commutes with finite sums. -/
theorem coe_sum {ι : Type*} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- A masked projection of real data is real: it is a finite sum of products of reals, plus a real, times 0 or 1. -/
theorem proj_isReal {x : Fin 4096 → Fin 256 → EReal} {W : Fin 256 → Fin 256 → EReal} {bias : Fin 256 → EReal}
    (hx : ∀ p e, IsReal (x p e)) (hW : ∀ f e, IsReal (W f e)) (hb : ∀ f, IsReal (bias f)) (len : BitVec 32)
    (p : Fin 4096) (f : Fin 256) : IsReal (proj x W bias len p f) := by
  choose x' hx' using hx
  choose W' hW' using hW
  choose b' hb' using hb
  have hs : (∑ e : Fin 256, x p e * W f e) = ((∑ e : Fin 256, x' p e * W' f e : ℝ) : EReal) := by
    rw [coe_sum]
    exact Finset.sum_congr rfl fun e _ => by rw [hx' p e, hW' f e, EReal.coe_mul]
  unfold proj maskv
  rw [hs, hb' f, ← EReal.coe_add, ← EReal.coe_mul]
  exact ⟨_, rfl⟩

/-- The law over the reals: distribute, then exchange the sums over the feature and the two positions. -/
theorem real_law (q k v : Fin 4096 → Fin 256 → ℝ) (e : Fin 256) :
    ∑ f : Fin 256, (∑ p : Fin 4096, q p f) * (∑ p' : Fin 4096, k p' f * v p' e)
      = ∑ p : Fin 4096, ∑ p' : Fin 4096, (∑ f : Fin 256, q p f * k p' f) * v p' e := by
  calc ∑ f : Fin 256, (∑ p : Fin 4096, q p f) * (∑ p' : Fin 4096, k p' f * v p' e)
      = ∑ f : Fin 256, ∑ p : Fin 4096, ∑ p' : Fin 4096, q p f * (k p' f * v p' e) :=
        Finset.sum_congr rfl fun f _ => Finset.sum_mul_sum _ _ _ _
    _ = ∑ p : Fin 4096, ∑ f : Fin 256, ∑ p' : Fin 4096, q p f * (k p' f * v p' e) := Finset.sum_comm
    _ = ∑ p : Fin 4096, ∑ p' : Fin 4096, ∑ f : Fin 256, q p f * (k p' f * v p' e) :=
        Finset.sum_congr rfl fun p _ => Finset.sum_comm
    _ = ∑ p : Fin 4096, ∑ p' : Fin 4096, (∑ f : Fin 256, q p f * k p' f) * v p' e :=
        Finset.sum_congr rfl fun p _ => Finset.sum_congr rfl fun p' _ => by
          rw [Finset.sum_mul]
          exact Finset.sum_congr rfl fun f _ => by ring

theorem factored_eq_attn {q k v : Fin 4096 → Fin 256 → EReal} (hq : ∀ p f, IsReal (q p f)) (hk : ∀ p f, IsReal (k p f))
    (hv : ∀ p f, IsReal (v p f)) (e : Fin 256) : factored q k v e = attn q k v e := by
  choose q' hq' using hq
  choose k' hk' using hk
  choose v' hv' using hv
  obtain rfl : q = fun p f => ((q' p f : ℝ) : EReal) := funext fun p => funext fun f => hq' p f
  obtain rfl : k = fun p f => ((k' p f : ℝ) : EReal) := funext fun p => funext fun f => hk' p f
  obtain rfl : v = fun p f => ((v' p f : ℝ) : EReal) := funext fun p => funext fun f => hv' p f
  unfold factored attn
  simp only [← EReal.coe_mul, ← coe_sum]
  exact congrArg Real.toEReal (real_law q' k' v' e)

/-- Four tiles of 1024 rows make the 4096 rows. -/
theorem sum_tiles {M : Type*} [AddCommMonoid M] (g : Fin 4096 → M) :
    ∑ j ∈ Finset.range 4, (if h : j < 4 then ∑ r : Fin 1024, g ⟨1024 * j + r.val, by have := r.isLt; omega⟩ else 0)
      = ∑ p : Fin 4096, g p := by
  rw [Finset.sum_range]
  have h1 : ∀ j : Fin 4, (if h : j.val < 4 then ∑ r : Fin 1024, g ⟨1024 * j.val + r.val, by have := r.isLt; omega⟩ else 0)
      = ∑ r : Fin 1024, g ⟨1024 * j.val + r.val, by have := r.isLt; have := j.isLt; omega⟩ := fun j => dif_pos j.isLt
  rw [Finset.sum_congr rfl fun j _ => h1 j]
  rw [← Fintype.sum_prod_type' (fun (j : Fin 4) (r : Fin 1024) =>
    g ⟨1024 * j.val + r.val, by have := r.isLt; have := j.isLt; omega⟩)]
  refine Fintype.sum_equiv (finProdFinEquiv (m := 4) (n := 1024)) _ _ fun x => ?_
  exact congrArg g (Fin.ext (by simp [finProdFinEquiv]; omega))

theorem factoredResult_eq_attnResult
    (x : (⟨3, ![8, 4096, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal)
    (len : (⟨1, ![8]⟩ : Shape).Idx → BitVec 32)
    (hx : ∀ i, IsReal (x i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i)) :
    factoredResult x Wq bq Wk bk Wv bv len = attnResult x Wq bq Wk bk Wv bv len := by
  funext j
  unfold factoredResult attnResult
  have hproj : ∀ (W : (⟨2, ![256, 256]⟩ : Shape).Idx → EReal) (b : (⟨1, ![256]⟩ : Shape).Idx → EReal),
      (∀ i, IsReal (W i)) → (∀ i, IsReal (b i)) → ∀ (c : Fin 8) p f, IsReal (projOf x W b len c p f) :=
    fun W b hW hb c p f => by
      unfold projOf rowsOf matOf vecOf
      exact proj_isReal (fun p e => hx _) (fun f e => hW _) (fun f => hb _) _ p f
  exact congrArg (fun z => Ideal.div z smax)
    (factored_eq_attn (hproj Wq bq hWq hbq _) (hproj Wk bk hWk hbk _) (hproj Wv bv hWv hbv _) _)

end Cert.Ragged

end
-- ==== Proof.KAccum.lean ====
import proofs.«420189_j61933428416272_1_alg».proof.Proof.Gen.KernelIdeal.Frame
import Idealize.ShloMosaic.Lib.Pipeline.Value
import Idealize.ShloMosaic.Lib.Tactic
import proofs.«420189_j61933428416272_1_alg».proof.Proof.KTiles
import proofs.«420189_j61933428416272_1_alg».proof.Proof.Algebra
set_option maxRecDepth 16384

noncomputable section

open Idealize.ShloMosaic Idealize.ShloMosaic.TcCoe Idealize.SL.Sem
open Idealize.ShloMosaic.Pipeline (Dat)

/-!
  The accumulation over the grid. After the point of tile `s` of sequence `b` the column-sum scratch holds tiles
  `0 … s` of `∑ p, q p f` and the other scratch tiles `0 … s` of `∑ p, k p f * v p e` — by induction on the point: the first
  tile of a sequence restarts both from zero, every later tile adds its own contribution to what the point before
  left. At a sequence's last tile the four tiles make the whole sums, and the output block is the factored
  arrangement of the sequence's three projections over the padded length.
-/
namespace Cert.KernelIdeal.KVal

open Cert.KernelIdeal Cert.KernelIdeal.Gen Idealize.ShloMosaic.ValueIdx Cert.Ragged

variable (m : (ℓ : Loc nD τ sig) → Buf (Elt Ideal) ℓ) (hO : Ok m) (c : Dev nD)

theorem N_eq : (cfgM m hO).N = 32 := N_0

/-- Both accumulators after point `n`: tiles `0 … n % 4` of sequence `n / 4`. -/
theorem acc_inv : ∀ (n : ℕ) (h : n < (cfgM m hO).N) (b : Fin 8), b.val = n / 4 →
    (∀ f : Fin 256, ((outsAt0 m hO c n h).2.1 : S1x256.Idx → EReal) (ix2 0 f)
        = ∑ j ∈ Finset.range (n % 4 + 1), tileQ m c b f j)
    ∧ (∀ f e : Fin 256, ((outsAt0 m hO c n h).2.2 : S256x256.Idx → EReal) (ix2 f e)
        = ∑ j ∈ Finset.range (n % 4 + 1), tileM m c b f e j) := by
  intro n
  induction n with
  | zero =>
    intro h b hb
    have h0 : (⟨0, h⟩ : Fin (cfgM m hO).N).val % 4 = 0 := rfl
    have h3 : ¬(⟨0, h⟩ : Fin (cfgM m hO).N).val % 4 = 3 := by dsimp only; omega
    constructor
    · intro f
      rw [outsAt0_A m hO c ⟨0, h⟩ h0 h3]; dsimp only
      refine (congrFun (qsum_first (F := Ideal) c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) ((hcond0_0 ⟨0, h⟩).mpr h0) (fun h' => h3 ((hcond0_1 ⟨0, h⟩).mp h')) (iblk m hO c 0 ⟨0, h⟩) (iblk m hO c 1 ⟨0, h⟩) (iblk m hO c 2 ⟨0, h⟩) (iblk m hO c 3 ⟨0, h⟩) (iblk m hO c 4 ⟨0, h⟩) (iblk m hO c 5 ⟨0, h⟩) (iblk m hO c 6 ⟨0, h⟩) (tbl m 0)) (ix2 0 f)).trans ?_
      refine (qstep_apply m hO c ⟨0, h⟩ b hb (k0_pay4 (F := Ideal)) f).trans ?_
      rw [zero_row_apply, zero_add]
      exact (Finset.sum_range_one _).symm
    · intro f e
      rw [outsAt0_A m hO c ⟨0, h⟩ h0 h3]; dsimp only
      refine (congrFun (ktv_first (F := Ideal) c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) ((hcond0_0 ⟨0, h⟩).mpr h0) (fun h' => h3 ((hcond0_1 ⟨0, h⟩).mp h')) (iblk m hO c 0 ⟨0, h⟩) (iblk m hO c 1 ⟨0, h⟩) (iblk m hO c 2 ⟨0, h⟩) (iblk m hO c 3 ⟨0, h⟩) (iblk m hO c 4 ⟨0, h⟩) (iblk m hO c 5 ⟨0, h⟩) (iblk m hO c 6 ⟨0, h⟩) (tbl m 0)) (ix2 f e)).trans ?_
      refine (mstep_apply m hO c ⟨0, h⟩ b hb (k0_pay5 (F := Ideal)) f e).trans ?_
      rw [zero_mat_apply, zero_add]
      exact (Finset.sum_range_one _).symm
  | succ k ih =>
    intro h b hb
    have hN : k + 1 < 32 := lt_of_lt_of_eq h (N_eq m hO)
    by_cases h0 : (⟨k + 1, h⟩ : Fin (cfgM m hO).N).val % 4 = 0
    · -- the first tile of a sequence: both accumulators restart
      have h3 : ¬(⟨k + 1, h⟩ : Fin (cfgM m hO).N).val % 4 = 3 := by dsimp only at h0 ⊢; omega
      have hm : (k + 1) % 4 = 0 := h0
      constructor
      · intro f
        rw [outsAt0_A m hO c ⟨k + 1, h⟩ h0 h3]; dsimp only
        refine (congrFun (qsum_first (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) ((hcond0_0 ⟨k + 1, h⟩).mpr h0) (fun h' => h3 ((hcond0_1 ⟨k + 1, h⟩).mp h')) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0)) (ix2 0 f)).trans ?_
        refine (qstep_apply m hO c ⟨k + 1, h⟩ b hb (k0_pay4 (F := Ideal)) f).trans ?_
        rw [zero_row_apply, zero_add]
        show tileQ m c b f ((k + 1) % 4) = _
        rw [hm]
        exact (Finset.sum_range_one _).symm
      · intro f e
        rw [outsAt0_A m hO c ⟨k + 1, h⟩ h0 h3]; dsimp only
        refine (congrFun (ktv_first (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) ((hcond0_0 ⟨k + 1, h⟩).mpr h0) (fun h' => h3 ((hcond0_1 ⟨k + 1, h⟩).mp h')) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0)) (ix2 f e)).trans ?_
        refine (mstep_apply m hO c ⟨k + 1, h⟩ b hb (k0_pay5 (F := Ideal)) f e).trans ?_
        rw [zero_mat_apply, zero_add]
        show tileM m c b f e ((k + 1) % 4) = _
        rw [hm]
        exact (Finset.sum_range_one _).symm
    · -- a later tile: each accumulator grows by this tile's contribution
      have hk : k < (cfgM m hO).N := Nat.lt_of_succ_lt h
      have hm0 : ¬(k + 1) % 4 = 0 := h0
      have hb' : b.val = k / 4 := by omega
      have hmod : k % 4 + 1 = (k + 1) % 4 := by omega
      obtain ⟨ihq, ihm⟩ := ih hk b hb'
      by_cases h3 : (⟨k + 1, h⟩ : Fin (cfgM m hO).N).val % 4 = 3
      · constructor
        · intro f
          rw [outsAt0_C m hO c ⟨k + 1, h⟩ h0 h3]; dsimp only
          refine (congrFun (qsum_last (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) (fun h' => h0 ((hcond0_0 ⟨k + 1, h⟩).mp h')) ((hcond0_1 ⟨k + 1, h⟩).mpr h3) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0) _ _) (ix2 0 f)).trans ?_
          refine (qstep_apply m hO c ⟨k + 1, h⟩ b hb _ f).trans ?_
          show _ + tileQ m c b f ((k + 1) % 4) = _
          rw [Finset.sum_range_succ, ← hmod]
          exact congrArg (· + _) (ihq f)
        · intro f e
          rw [outsAt0_C m hO c ⟨k + 1, h⟩ h0 h3]; dsimp only
          refine (congrFun (ktv_last (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) (fun h' => h0 ((hcond0_0 ⟨k + 1, h⟩).mp h')) ((hcond0_1 ⟨k + 1, h⟩).mpr h3) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0) _ _) (ix2 f e)).trans ?_
          refine (mstep_apply m hO c ⟨k + 1, h⟩ b hb _ f e).trans ?_
          show _ + tileM m c b f e ((k + 1) % 4) = _
          rw [Finset.sum_range_succ, ← hmod]
          exact congrArg (· + _) (ihm f e)
      · constructor
        · intro f
          rw [outsAt0_B m hO c ⟨k + 1, h⟩ h0 h3]; dsimp only
          refine (congrFun (qsum_mid (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) (fun h' => h0 ((hcond0_0 ⟨k + 1, h⟩).mp h')) (fun h' => h3 ((hcond0_1 ⟨k + 1, h⟩).mp h')) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0) _ _) (ix2 0 f)).trans ?_
          refine (qstep_apply m hO c ⟨k + 1, h⟩ b hb _ f).trans ?_
          show _ + tileQ m c b f ((k + 1) % 4) = _
          rw [Finset.sum_range_succ, ← hmod]
          exact congrArg (· + _) (ihq f)
        · intro f e
          rw [outsAt0_B m hO c ⟨k + 1, h⟩ h0 h3]; dsimp only
          refine (congrFun (ktv_mid (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) (fun h' => h0 ((hcond0_0 ⟨k + 1, h⟩).mp h')) (fun h' => h3 ((hcond0_1 ⟨k + 1, h⟩).mp h')) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0) _ _) (ix2 f e)).trans ?_
          refine (mstep_apply m hO c ⟨k + 1, h⟩ b hb _ f e).trans ?_
          show _ + tileM m c b f e ((k + 1) % 4) = _
          rw [Finset.sum_range_succ, ← hmod]
          exact congrArg (· + _) (ihm f e)

end Cert.KernelIdeal.KVal

end
-- ==== Proof.KFinal.lean ====
import proofs.«420189_j61933428416272_1_alg».proof.Proof.Gen.KernelIdeal.Frame
import Idealize.ShloMosaic.Lib.Pipeline.Value
import Idealize.ShloMosaic.Lib.Tactic
import proofs.«420189_j61933428416272_1_alg».proof.Proof.KAccum
set_option maxRecDepth 16384

noncomputable section

open Idealize.ShloMosaic Idealize.ShloMosaic.TcCoe Idealize.SL.Sem
open Idealize.ShloMosaic.Pipeline (Dat)

/-!
  From the accumulators to the result array. At the last tile of sequence `b` the body stores
  `(∑ f, qsum f * M f e) / 4096` with both accumulators complete, i.e. the factored arrangement of the sequence's
  projections; that block is written back as row `b` of the [8, 1, 256] result, the eight last-tile points cover it,
  and the final reshape drops the unit axis.
-/
namespace Cert.KernelIdeal.KVal

open Cert.KernelIdeal Cert.KernelIdeal.Gen Idealize.ShloMosaic.ValueIdx Cert.Ragged

variable (m : (ℓ : Loc nD τ sig) → Buf (Elt Ideal) ℓ) (hO : Ok m) (c : Dev nD)

/-- The output block at a sequence's last tile: the factored arrangement over the padded length. -/
theorem out_inv (k : ℕ) (h : k + 1 < (cfgM m hO).N) (b : Fin 8) (hb : b.val = (k + 1) / 4) (h3 : (k + 1) % 4 = 3)
    (e : Fin 256) :
    ((outsAt0 m hO c (k + 1) h).1 : S1x1x256.Idx → EReal) (ix3 0 0 e)
      = Ideal.div (factored (seqQ m c b) (seqK m c b) (seqV m c b) e) smax := by
  have hN : k + 1 < 32 := lt_of_lt_of_eq h (N_eq m hO)
  have h0 : ¬(⟨k + 1, h⟩ : Fin (cfgM m hO).N).val % 4 = 0 := by dsimp only; omega
  have hk : k < (cfgM m hO).N := Nat.lt_of_succ_lt h
  have hb' : b.val = k / 4 := by omega
  have hk2 : k % 4 + 1 = 3 := by omega
  obtain ⟨ihq, ihm⟩ := acc_inv m hO c k hk b hb'
  rw [outsAt0_C m hO c ⟨k + 1, h⟩ h0 h3]; dsimp only
  refine (congrFun (out_last (F := Ideal) c (grid0.coords ⟨k + 1, h⟩) (ms0_0 m hO ⟨k + 1, h⟩) (hs0_0 m hO ⟨k + 1, h⟩) (ms0_1 m hO ⟨k + 1, h⟩) (hs0_1 m hO ⟨k + 1, h⟩) (ms0_2 m hO ⟨k + 1, h⟩) (hs0_2 m hO ⟨k + 1, h⟩) (ms0_3 m hO ⟨k + 1, h⟩) (hs0_3 m hO ⟨k + 1, h⟩) (ms0_4 m hO ⟨k + 1, h⟩) (hs0_4 m hO ⟨k + 1, h⟩) (ms0_5 m hO ⟨k + 1, h⟩) (hs0_5 m hO ⟨k + 1, h⟩) (ms0_6 m hO ⟨k + 1, h⟩) (hs0_6 m hO ⟨k + 1, h⟩) (ms0_7 m hO ⟨k + 1, h⟩) (hs0_7 m hO ⟨k + 1, h⟩) scM0_0 (Memref.isWhole_whole _) scM0_1 (Memref.isWhole_whole _) (fun h' => h0 ((hcond0_0 ⟨k + 1, h⟩).mp h')) ((hcond0_1 ⟨k + 1, h⟩).mpr h3) (iblk m hO c 0 ⟨k + 1, h⟩) (iblk m hO c 1 ⟨k + 1, h⟩) (iblk m hO c 2 ⟨k + 1, h⟩) (iblk m hO c 3 ⟨k + 1, h⟩) (iblk m hO c 4 ⟨k + 1, h⟩) (iblk m hO c 5 ⟨k + 1, h⟩) (iblk m hO c 6 ⟨k + 1, h⟩) (tbl m 0) _ _) (ix3 0 0 e)).trans ?_
  refine (out_apply _ _ e).trans ?_
  refine congrArg (Ideal.div · smax) ?_
  unfold factored
  refine Finset.sum_congr rfl fun f _ => congrArg₂ (· * ·) ?_ ?_
  · refine (qstep_apply m hO c ⟨k + 1, h⟩ b hb _ f).trans ?_
    show _ + tileQ m c b f ((k + 1) % 4) = _
    rw [h3]
    refine Eq.trans ?_ (sum_tiles (fun p => seqQ m c b p f))
    show _ + tileQ m c b f 3 = ∑ j ∈ Finset.range 4, tileQ m c b f j
    rw [Finset.sum_range_succ _ 3]
    refine congrArg (· + _) ?_
    have := ihq f
    rw [hk2] at this
    exact this
  · refine (mstep_apply m hO c ⟨k + 1, h⟩ b hb _ f e).trans ?_
    show _ + tileM m c b f e ((k + 1) % 4) = _
    rw [h3]
    refine Eq.trans ?_ (sum_tiles (fun p => seqK m c b p f * seqV m c b p e))
    show _ + tileM m c b f e 3 = ∑ j ∈ Finset.range 4, tileM m c b f e j
    rw [Finset.sum_range_succ _ 3]
    refine congrArg (· + _) ?_
    have := ihm f e
    rw [hk2] at this
    exact this

/-- The result before the final reshape, [8, 1, 256]: row `b` is sequence `b`'s factored arrangement. -/
def kres3 : S8x1x256.Idx → EReal :=
  fun j => Ideal.div (factored (seqQ m c (j 0)) (seqK m c (j 0)) (seqV m c (j 0)) (j 2)) smax

theorem idx7_facts : ∀ t : Fin grid0.N, cc0_transform_7 (grid0.coords t) 0 = t.val / 4 ∧ cc0_transform_7 (grid0.coords t) 1 = 0
    ∧ cc0_transform_7 (grid0.coords t) 2 = 0 := by decide +kernel

/-- What a last-tile point writes back is its sequence's row of the result. -/
theorem flushed_eq (t : Fin (cfgM m hO).N) (hf : ((cfgM m hO).win 7).flush t = true) :
    (dats m hO 0 c).flushed 7 t = (((cfgM m hO).win 7).blk t).view.read (Elt Ideal) (kres3 m c) := by
  have h3 : t.val % 4 = 3 := (flush0_7 (adm m hO) t).mp hf
  have hN : t.val < 32 := lt_of_lt_of_eq t.isLt (N_eq m hO)
  show ((cfgM m hO).win 7).cut (grid0.coords t) ((dats m hO 0 c).after 7 t) = _
  rw [after0_7]
  refine funext fun (y : S1x1x256.Idx) => ?_
  obtain ⟨u0, u1, e, rfl⟩ : ∃ (u0 : Fin 1) (u1 : Fin 1) (e : Fin 256), y = ix3 u0 u1 e := ⟨y 0, y 1, y 2, eq_ix3 y⟩
  obtain rfl : u0 = 0 := Subsingleton.elim _ _
  obtain rfl : u1 = 0 := Subsingleton.elim _ _
  have hidx := idx7_facts t
  have hemb : (((cfgM m hO).win 7).blk t).view.emb (ix3 0 0 e) = (ix3 ⟨t.val / 4, by omega⟩ 0 e : S8x1x256.Idx) := by
    funext a
    apply Fin.ext
    match a with
    | ⟨0, _⟩ => show cc0_transform_7 (grid0.coords t) 0 * 1 + 1 * 0 = t.val / 4; rw [hidx.1]; omega
    | ⟨1, _⟩ => show cc0_transform_7 (grid0.coords t) 1 * 1 + 1 * 0 = 0; rw [hidx.2.1]
    | ⟨2, _⟩ => show cc0_transform_7 (grid0.coords t) 2 * 256 + 1 * e.val = e.val; rw [hidx.2.2]; omega
  show _ = kres3 m c ((((cfgM m hO).win 7).blk t).view.emb (ix3 0 0 e))
  rw [hemb]
  obtain ⟨n, hn⟩ := t
  cases n with
  | zero => exfalso; dsimp only at h3; omega
  | succ k => exact out_inv m hO c k hn ⟨(k + 1) / 4, by dsimp only at hN; omega⟩ rfl h3 e

set_option backward.isDefEq.respectTransparency.types false in
/-- The eight last-tile points cover the result array, so it ends as `kres3`. -/
theorem final7 : (dats m hO 0 c).arrAt 7 (cfgM m hO).N = kres3 m c :=
  (dats m hO 0 c).arrAt_eq_of_cover 7 (kres3 m c) (fun t hf => flushed_eq m hO c t hf) fun (i : S8x1x256.Idx) => by
    have hi0 : (i 0).val < 8 := (i 0).isLt
    have hi1 : (i 1).val < 1 := (i 1).isLt
    have hi2 : (i 2).val < 256 := (i 2).isLt
    have hlt : 4 * (i 0).val + 3 < (cfgM m hO).N := by rw [N_eq m hO]; omega
    refine ⟨⟨4 * (i 0).val + 3, hlt⟩, (flush0_7 (adm m hO) _).mpr (by dsimp only; omega), ?_⟩
    have hidx := idx7_facts ⟨4 * (i 0).val + 3, hlt⟩
    show i ∈ ((View.whole main_v9).slice (((cfgM m hO).win 7).rect ⟨4 * (i 0).val + 3, hlt⟩)).set
    rw [View.set_slice_whole]
    refine Rect.mem_set_unit.mpr fun a => ?_
    match a with
    | ⟨0, _⟩ =>
      show cc0_transform_7 (grid0.coords ⟨4 * (i 0).val + 3, hlt⟩) 0 * 1 ≤ (i 0).val
        ∧ (i 0).val < cc0_transform_7 (grid0.coords ⟨4 * (i 0).val + 3, hlt⟩) 0 * 1 + 1
      rw [hidx.1]; dsimp only; omega
    | ⟨1, _⟩ =>
      show cc0_transform_7 (grid0.coords ⟨4 * (i 0).val + 3, hlt⟩) 1 * 1 ≤ (i 1).val
        ∧ (i 1).val < cc0_transform_7 (grid0.coords ⟨4 * (i 0).val + 3, hlt⟩) 1 * 1 + 1
      rw [hidx.2.1]; omega
    | ⟨2, _⟩ =>
      show cc0_transform_7 (grid0.coords ⟨4 * (i 0).val + 3, hlt⟩) 2 * 256 ≤ (i 2).val
        ∧ (i 2).val < cc0_transform_7 (grid0.coords ⟨4 * (i 0).val + 3, hlt⟩) 2 * 256 + 256
      rw [hidx.2.2]; omega

end Cert.KernelIdeal.KVal

end
-- ==== Proof.KRun.lean ====
import proofs.«420189_j61933428416272_1_alg».proof.Proof.Gen.KernelIdeal.Frame
import Idealize.ShloMosaic.Lib.Pipeline.Value
import Idealize.ShloMosaic.Lib.Tactic
import proofs.«420189_j61933428416272_1_alg».proof.Proof.KFinal
set_option maxRecDepth 16384

noncomputable section

open Idealize.ShloMosaic Idealize.ShloMosaic.TcCoe Idealize.SL.Sem
open Idealize.ShloMosaic.Pipeline (Dat)

/-!
  The kernel's run with its result named: the [8, 256] result is the factored arrangement of the three masked
  projections of each sequence, divided by the padded length.
-/
namespace Cert.KernelIdeal.KVal

open Cert.KernelIdeal Cert.KernelIdeal.Gen Idealize.ShloMosaic.ValueIdx Cert.Ragged

variable (m : (ℓ : Loc nD τ sig) → Buf (Elt Ideal) ℓ) (hO : Ok m) (c : Dev nD) (ρ : Dev nD → PrngReg)

/-- The kernel's result, [8, 256]. -/
def kres : S8x256.Idx → EReal :=
  factoredResult (aX m c) (aWq m c) (abq m c) (aWk m c) (abk m c) (aWv m c) (abv m c) (aLen m c)

/-- Dropping the unit axis of the [8, 1, 256] result gives the [8, 256] one. -/
theorem reshape_kres3 (h : S8x1x256.ShapeCasts S8x256) : shapeCast S8x256 (kres3 m c) h = kres m c := by
  refine funext fun (j : S8x256.Idx) => ?_
  obtain ⟨b, e, rfl⟩ : ∃ (b : Fin 8) (e : Fin 256), j = ix2 b e := ⟨j 0, j 1, eq_ix2 j⟩
  refine (shapeCast_apply (kres3 m c) h (ix2 b e) (ix3 b 0 e) ?_).trans ?_
  · rw [Shape.rowMajor_val_three, Shape.rowMajor_val_two]
    show (b.val * 1 + 0) * 256 + e.val = b.val * 256 + e.val
    omega
  · rfl

/-- The buffer the program returns, after the reshape that follows the region. -/
theorem tail_eq : Pipeline.afterTail pcfgs (fun _ => adm m hO) (dats m hO) 0 (V0 m) [hostOps1] c main_v10 = kres m c := by
  unfold Pipeline.afterTail
  show StableHlo.after (hostOps1 (F := Ideal)) _ (Proc.devRef .tc main_v10) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v9) = kres3 m c :=
    (Pipeline.withArrays_arr spec0 (launch0 (F := Ideal)).win.arr_inj c _ _ 7).trans (final7 m hO c)
  show shapeCast S8x256 (Pipeline.withArrays (Pipeline.pin pcfgs (fun _ => adm m hO) 0).spec c (V0 m c)
      (fun w => (dats m hO 0 c).arrAt w (Pipeline.pin pcfgs (fun _ => adm m hO) 0).N) (Proc.devRef .tc main_v9))
      Facts₀.shapeCasts_S8x1x256_S8x256 = kres m c
  rw [hw]
  exact reshape_kres3 m c _

/-- THE KERNEL'S RUN, read: every weakly fair execution terminates with the result at the factored arrangement of
    the arguments and the arguments unchanged. -/
theorem run (hOk : Ok m) : θ_run (defs (F := Ideal)) (onTc (τ := τ) (main (F := Ideal))) ⟨m, fun _ => 0, ρ⟩ fun r => ∀ c : Dev nD,
      r.2.mem ((c.tc : Thread nD τ).loc main_v10) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v10 (by decide : main_v10 ∈ Pipeline.restRefs sig spec0)).trans (tail_eq m hOk c),
      ((h c).1 0).trans (((dats m hOk 0 c).arrAt_in 0 rfl _).trans ((A_eq m hOk c 0).trans (V_main_arg0 m c))),
      (((h c).2 main_arg1 (by decide : main_arg1 ∈ Pipeline.restRefs sig spec0)).trans (W_main_arg1 m hOk (dats m hOk) c)),
      (((h c).2 main_arg2 (by decide : main_arg2 ∈ Pipeline.restRefs sig spec0)).trans (W_main_arg2 m hOk (dats m hOk) c)),
      (((h c).2 main_arg3 (by decide : main_arg3 ∈ Pipeline.restRefs sig spec0)).trans (W_main_arg3 m hOk (dats m hOk) c)),
      (((h c).2 main_arg4 (by decide : main_arg4 ∈ Pipeline.restRefs sig spec0)).trans (W_main_arg4 m hOk (dats m hOk) c)),
      (((h c).2 main_arg5 (by decide : main_arg5 ∈ Pipeline.restRefs sig spec0)).trans (W_main_arg5 m hOk (dats m hOk) c)),
      (((h c).2 main_arg6 (by decide : main_arg6 ∈ Pipeline.restRefs sig spec0)).trans (W_main_arg6 m hOk (dats m hOk) c)),
      (((h c).2 main_arg7 (by decide : main_arg7 ∈ Pipeline.restRefs sig spec0)).trans (W_main_arg7 m hOk (dats m hOk) c))⟩)
    (run_main m ρ hOk)

end Cert.KernelIdeal.KVal

end
-- ==== Proof.RefValue.lean ====
/-
  The reference's result, read index by index: the scores-first arrangement of the masked projections.
-/
import proofs.«420189_j61933428416272_1_alg».proof.Proof.Gen.ReferenceIdeal.Run
import proofs.«420189_j61933428416272_1_alg».proof.Proof.Gen.ReferenceIdeal.Read
import proofs.«420189_j61933428416272_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Idealize.ShloMosaic.TcCoe Idealize.SL.Sem Cert.ReferenceIdeal

/-! ## The stages' index functions at literal coordinates

Each layout stage reads its operand at an index computed from the result's index; at an index given by its
coordinates these are again indices given by coordinates. -/

/-- The mask's broadcast along the feature axis reads position `(b, p)` of the column `[8, 4096, 1]`. -/
theorem idx12 (b : Fin 8) (p : Fin 4096) (f : Fin 256) : Read.idx_main_v12 (ix3 b p f) = ix3 b p (0 : Fin 1) :=
  funext fun a => match a with | ⟨0, _⟩ => rfl | ⟨1, _⟩ => rfl | ⟨2, _⟩ => rfl
theorem idx18 (b : Fin 8) (p : Fin 4096) (f : Fin 256) : Read.idx_main_v18 (ix3 b p f) = ix3 b p (0 : Fin 1) :=
  funext fun a => match a with | ⟨0, _⟩ => rfl | ⟨1, _⟩ => rfl | ⟨2, _⟩ => rfl
theorem idx24 (b : Fin 8) (p : Fin 4096) (f : Fin 256) : Read.idx_main_v24 (ix3 b p f) = ix3 b p (0 : Fin 1) :=
  funext fun a => match a with | ⟨0, _⟩ => rfl | ⟨1, _⟩ => rfl | ⟨2, _⟩ => rfl
/-- The column `[8, 4096, 1]` reads the comparison at `(b, p)`. -/
theorem idx6 (b : Fin 8) (p : Fin 4096) (z : Fin 1) : Read.idx_main_v6 (ix3 b p z) = ix2 b p :=
  funext fun a => match a with | ⟨0, _⟩ => rfl | ⟨1, _⟩ => rfl
/-- The positions `0 … 4095`, broadcast over the batch. -/
theorem idx3 (b : Fin 8) (p : Fin 4096) : Read.idx_main_v3 (ix2 b p) = ix2 (0 : Fin 1) p :=
  funext fun a => match a with | ⟨0, _⟩ => rfl | ⟨1, _⟩ => rfl
theorem idx1 (z : Fin 1) (p : Fin 4096) : Read.idx_main_v1 (ix2 z p) = ix1 p :=
  funext fun a => match a with | ⟨0, _⟩ => rfl
/-- The lengths, broadcast over the positions. -/
theorem idx4 (b : Fin 8) (p : Fin 4096) : Read.idx_main_v4 (ix2 b p) = ix2 b (0 : Fin 1) :=
  funext fun a => match a with | ⟨0, _⟩ => rfl | ⟨1, _⟩ => rfl
theorem idx2 (b : Fin 8) (z : Fin 1) : Read.idx_main_v2 (ix2 b z) = ix1 b :=
  funext fun a => match a with | ⟨0, _⟩ => rfl

/-- A bias, broadcast over batch and position, reads feature `f`. -/
theorem idx10 (b : Fin 8) (p : Fin 4096) (f : Fin 256) :
    Read.idx_main_v9 (Read.idx_main_v10 (ix3 b p f)) = ix1 f :=
  funext fun a => match a with | ⟨0, _⟩ => rfl
theorem idx16 (b : Fin 8) (p : Fin 4096) (f : Fin 256) :
    Read.idx_main_v15 (Read.idx_main_v16 (ix3 b p f)) = ix1 f :=
  funext fun a => match a with | ⟨0, _⟩ => rfl
theorem idx22 (b : Fin 8) (p : Fin 4096) (f : Fin 256) :
    Read.idx_main_v21 (Read.idx_main_v22 (ix3 b p f)) = ix1 f :=
  funext fun a => match a with | ⟨0, _⟩ => rfl

/-- A projection's product `x · Wᵀ` at `(b, p, f)` pairs `x (b, p, k)` with `W (f, k)`. -/
theorem lidx8 (b : Fin 8) (p : Fin 4096) (f k : Fin 256) : Read.lidx_main_v8 (ix3 b p f) k = ix3 b p k :=
  funext fun a => match a with | ⟨0, _⟩ => rfl | ⟨1, _⟩ => rfl | ⟨2, _⟩ => rfl
theorem ridx8 (b : Fin 8) (p : Fin 4096) (f k : Fin 256) : Read.ridx_main_v8 (ix3 b p f) k = ix2 f k :=
  funext fun a => match a with | ⟨0, _⟩ => rfl | ⟨1, _⟩ => rfl
theorem lidx14 (b : Fin 8) (p : Fin 4096) (f k : Fin 256) : Read.lidx_main_v14 (ix3 b p f) k = ix3 b p k :=
  funext fun a => match a with | ⟨0, _⟩ => rfl | ⟨1, _⟩ => rfl | ⟨2, _⟩ => rfl
theorem ridx14 (b : Fin 8) (p : Fin 4096) (f k : Fin 256) : Read.ridx_main_v14 (ix3 b p f) k = ix2 f k :=
  funext fun a => match a with | ⟨0, _⟩ => rfl | ⟨1, _⟩ => rfl
theorem lidx20 (b : Fin 8) (p : Fin 4096) (f k : Fin 256) : Read.lidx_main_v20 (ix3 b p f) k = ix3 b p k :=
  funext fun a => match a with | ⟨0, _⟩ => rfl | ⟨1, _⟩ => rfl | ⟨2, _⟩ => rfl
theorem ridx20 (b : Fin 8) (p : Fin 4096) (f k : Fin 256) : Read.ridx_main_v20 (ix3 b p f) k = ix2 f k :=
  funext fun a => match a with | ⟨0, _⟩ => rfl | ⟨1, _⟩ => rfl

/-- The scores `q kᵀ` at `(b, p, p')` pair query row `p` with key row `p'`, feature by feature. -/
theorem lidx26 (b : Fin 8) (p p' : Fin 4096) (f : Fin 256) : Read.lidx_main_v26 (ix3 b p p') f = ix3 b p f :=
  funext fun a => match a with | ⟨0, _⟩ => rfl | ⟨1, _⟩ => rfl | ⟨2, _⟩ => rfl
theorem ridx26 (b : Fin 8) (p p' : Fin 4096) (f : Fin 256) : Read.ridx_main_v26 (ix3 b p p') f = ix3 b p' f :=
  funext fun a => match a with | ⟨0, _⟩ => rfl | ⟨1, _⟩ => rfl | ⟨2, _⟩ => rfl
/-- The scores times the values at `(b, p, e)` pair score `(b, p, p')` with value `(b, p', e)`. -/
theorem lidx27 (b : Fin 8) (p : Fin 4096) (e : Fin 256) (p' : Fin 4096) :
    Read.lidx_main_v27 (ix3 b p e) p' = ix3 b p p' :=
  funext fun a => match a with | ⟨0, _⟩ => rfl | ⟨1, _⟩ => rfl | ⟨2, _⟩ => rfl
theorem ridx27 (b : Fin 8) (p : Fin 4096) (e : Fin 256) (p' : Fin 4096) :
    Read.ridx_main_v27 (ix3 b p e) p' = ix3 b p' e :=
  funext fun a => match a with | ⟨0, _⟩ => rfl | ⟨1, _⟩ => rfl | ⟨2, _⟩ => rfl
/-- The sum over the query rows at `(b, e)` runs over `(b, p, e)`. -/
theorem idx28 (b : Fin 8) (e : Fin 256) (p : Fin 4096) : Read.idx_main_v28 (ix2 b e) p = ix3 b p e :=
  funext fun a => match a with | ⟨0, _⟩ => rfl | ⟨1, _⟩ => rfl | ⟨2, _⟩ => rfl

/-! ## The mask and the three masked projections -/

/-- The mask stage at `(b, p)`: the comparison `p < lengths b` of 32-bit words, as the number 0 or 1. -/
theorem mask_apply (x7 : IVec S8 32) (b : Fin 8) (p : Fin 4096) (z : Fin 1) :
    Read.val_main_v7 (F := Ideal) x7 (ix3 b p z) = Cert.Ragged.maskv (x7 (ix1 b)) p.val := by
  rw [Read.val_main_v7_apply, Read.val_main_v6_apply, idx6, Read.val_main_v5_apply, Read.val_main_v3_apply, idx3,
    Read.val_main_v1_apply, idx1, Read.val_main_v0_apply, Read.val_main_v4_apply, idx4, Read.val_main_v2_apply, idx2]
  rfl

/-- The query projection: `(x_p · Wq_f + bq_f) · mask_p`. -/
theorem proj13 (x0 : FVec Ideal S8x4096x256 .f32) (x1 : FVec Ideal S256x256 .f32) (x2 : FVec Ideal S256 .f32)
    (x7 : IVec S8 32) (b : Fin 8) (p : Fin 4096) (f : Fin 256) :
    Read.val_main_v13 (F := Ideal) x0 x1 x2 x7 (ix3 b p f) = Cert.Ragged.projOf x0 x1 x2 x7 b p f := by
  rw [Read.val_main_v13_apply, Read.val_main_v11_apply, Read.val_main_v8_apply, Read.val_main_v10_apply,
    Read.val_main_v9_apply, idx10, Read.val_main_v12_apply, idx12, mask_apply]
  unfold Cert.Ragged.projOf Cert.Ragged.proj Cert.Ragged.rowsOf Cert.Ragged.matOf Cert.Ragged.vecOf
  rw [Finset.sum_congr rfl fun k _ => by rw [lidx8, ridx8]]
  rfl

/-- The key projection: `(x_p · Wk_f + bk_f) · mask_p`. -/
theorem proj19 (x0 : FVec Ideal S8x4096x256 .f32) (x3 : FVec Ideal S256x256 .f32) (x4 : FVec Ideal S256 .f32)
    (x7 : IVec S8 32) (b : Fin 8) (p : Fin 4096) (f : Fin 256) :
    Read.val_main_v19 (F := Ideal) x0 x3 x4 x7 (ix3 b p f) = Cert.Ragged.projOf x0 x3 x4 x7 b p f := by
  rw [Read.val_main_v19_apply, Read.val_main_v17_apply, Read.val_main_v14_apply, Read.val_main_v16_apply,
    Read.val_main_v15_apply, idx16, Read.val_main_v18_apply, idx18, mask_apply]
  unfold Cert.Ragged.projOf Cert.Ragged.proj Cert.Ragged.rowsOf Cert.Ragged.matOf Cert.Ragged.vecOf
  rw [Finset.sum_congr rfl fun k _ => by rw [lidx14, ridx14]]
  rfl

/-- The value projection: `(x_p · Wv_f + bv_f) · mask_p`. -/
theorem proj25 (x0 : FVec Ideal S8x4096x256 .f32) (x5 : FVec Ideal S256x256 .f32) (x6 : FVec Ideal S256 .f32)
    (x7 : IVec S8 32) (b : Fin 8) (p : Fin 4096) (f : Fin 256) :
    Read.val_main_v25 (F := Ideal) x0 x5 x6 x7 (ix3 b p f) = Cert.Ragged.projOf x0 x5 x6 x7 b p f := by
  rw [Read.val_main_v25_apply, Read.val_main_v23_apply, Read.val_main_v20_apply, Read.val_main_v22_apply,
    Read.val_main_v21_apply, idx22, Read.val_main_v24_apply, idx24, mask_apply]
  unfold Cert.Ragged.projOf Cert.Ragged.proj Cert.Ragged.rowsOf Cert.Ragged.matOf Cert.Ragged.vecOf
  rw [Finset.sum_congr rfl fun k _ => by rw [lidx20, ridx20]]
  rfl

/-! ## Scores, then values, then the sum over the query rows -/

/-- The score of query row `p` against key row `p'`: the dot product of the two masked projections' rows. -/
theorem scores_apply (x0 : FVec Ideal S8x4096x256 .f32) (x1 : FVec Ideal S256x256 .f32) (x2 : FVec Ideal S256 .f32)
    (x3 : FVec Ideal S256x256 .f32) (x4 : FVec Ideal S256 .f32) (x7 : IVec S8 32) (b : Fin 8) (p p' : Fin 4096) :
    Read.val_main_v26 (F := Ideal) x0 x1 x2 x3 x4 x7 (ix3 b p p')
      = ∑ f : Fin 256, Cert.Ragged.projOf x0 x1 x2 x7 b p f * Cert.Ragged.projOf x0 x3 x4 x7 b p' f := by
  rw [Read.val_main_v26_apply]
  exact Finset.sum_congr rfl fun f _ => by rw [lidx26, ridx26, proj13, proj19]

/-- The attention output at query row `p`, feature `e`: the scores of row `p` against every key row, times the values. -/
theorem out_apply (x0 : FVec Ideal S8x4096x256 .f32) (x1 : FVec Ideal S256x256 .f32) (x2 : FVec Ideal S256 .f32)
    (x3 : FVec Ideal S256x256 .f32) (x4 : FVec Ideal S256 .f32) (x5 : FVec Ideal S256x256 .f32) (x6 : FVec Ideal S256 .f32)
    (x7 : IVec S8 32) (b : Fin 8) (p : Fin 4096) (e : Fin 256) :
    Read.val_main_v27 (F := Ideal) x0 x1 x2 x3 x4 x5 x6 x7 (ix3 b p e)
      = ∑ p' : Fin 4096, (∑ f : Fin 256, Cert.Ragged.projOf x0 x1 x2 x7 b p f * Cert.Ragged.projOf x0 x3 x4 x7 b p' f)
          * Cert.Ragged.projOf x0 x5 x6 x7 b p' e := by
  rw [Read.val_main_v27_apply]
  exact Finset.sum_congr rfl fun p' _ => by rw [lidx27, ridx27, scores_apply, proj25]

/-- The sum over the query rows, from the zero initial value: the scores-first arrangement itself. -/
theorem rowsum_apply (x0 : FVec Ideal S8x4096x256 .f32) (x1 : FVec Ideal S256x256 .f32) (x2 : FVec Ideal S256 .f32)
    (x3 : FVec Ideal S256x256 .f32) (x4 : FVec Ideal S256 .f32) (x5 : FVec Ideal S256x256 .f32) (x6 : FVec Ideal S256 .f32)
    (x7 : IVec S8 32) (b : Fin 8) (e : Fin 256) :
    Read.val_main_v28 (F := Ideal) x0 x1 x2 x3 x4 x5 x6 x7 (ix2 b e)
      = Cert.Ragged.attn (Cert.Ragged.projOf x0 x1 x2 x7 b) (Cert.Ragged.projOf x0 x3 x4 x7 b)
          (Cert.Ragged.projOf x0 x5 x6 x7 b) e := by
  rw [Read.val_main_v28_apply, Read.val_main_cst_apply, Ideal.ofBits_def, Ideal.ofBits_zero_f32, zero_add]
  unfold Cert.Ragged.attn
  exact Finset.sum_congr rfl fun p _ => by rw [idx28, out_apply]

/-- The divisor is the padded length 4096 at every index. -/
theorem divisor_apply (i : S8x256.Idx) : Read.val_main_v29 (F := Ideal) i = Cert.Ragged.smax := by
  rw [Read.val_main_v29_apply, Read.val_main_cst_0_apply, Ideal.ofBits_def]

/-- The reference's last stage is the scores-first arrangement of the three masked projections, divided by 4096. -/
theorem result_eq (x0 : FVec Ideal S8x4096x256 .f32) (x1 : FVec Ideal S256x256 .f32) (x2 : FVec Ideal S256 .f32)
    (x3 : FVec Ideal S256x256 .f32) (x4 : FVec Ideal S256 .f32) (x5 : FVec Ideal S256x256 .f32) (x6 : FVec Ideal S256 .f32)
    (x7 : IVec S8 32) :
    Read.val_main_v30 (F := Ideal) x0 x1 x2 x3 x4 x5 x6 x7 = Cert.Ragged.attnResult x0 x1 x2 x3 x4 x5 x6 x7 := by
  funext j
  obtain ⟨b, e, rfl⟩ : ∃ (b : Fin 8) (e : Fin 256), j = ix2 b e := ⟨j 0, j 1, eq_ix2 j⟩
  rw [Read.val_main_v30_apply, rowsum_apply, divisor_apply, Ideal.hostDivf_def]
  rfl

/-- The reference's run with its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
        = Cert.Ragged.attnResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono
    (fun _ h c => ⟨(h c).1.trans ((Read.val_main_v30_eq (F := Ideal) _ _ _ _ _ _ _ _).trans (result_eq _ _ _ _ _ _ _ _)), (h c).2⟩)
    (Cert.ReferenceIdeal.Value.run (F := Ideal) m ρ)

end Cert.ReferenceIdeal.RefValue

end
-- ==== Proof.Finite.lean ====
/-
  The precondition read: every entry of every float argument is a real number. The printed predicate is the
  conjunction, over the seven float arguments, of "all entries have absolute value below +inf".
-/
import proofs.«420189_j61933428416272_1_alg».proof.Pre_finite_inputs
import proofs.«420189_j61933428416272_1_alg».proof.Proof.Spec
import Idealize.ShloMosaic.Lib.ReduceAll

noncomputable section

namespace Cert.Ragged

open Idealize.ShloMosaic Idealize.ShloMosaic.ValueIdx

/-- The rank-0 shape has one index. -/
instance subsingleton_scalarIdx : Subsingleton Cert.Pre_finite_inputs.S_.Idx := ⟨fun _ _ => funext fun d => d.elim0⟩

/-- On one value: |x| < +inf (the f32 word 0x7F800000 is +inf) says that x is neither infinity. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  induction x using EReal.rec with
  | bot => simp at hlt
  | coe r => exact ⟨r, rfl⟩
  | top => simp at hlt

/-- A conjunction of two one-bit arrays is 1 at an index exactly when both are. -/
theorem andi_apply_eq_one {s : Shape} (x y : IVec s 1) (i : s.Idx) :
    andi x y i = 1#1 ↔ x i = 1#1 ∧ y i = 1#1 := IntOp.andi_eq_one

/-- One conjunct, at any shape: if "all entries of |a| are below +inf" came out 1, every entry of a is real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (h : Host.reduce IntOp.andi
          (cmpf .olt (Host.absf a)
            (broadcastInDim s ![] hb (constant (F := Ideal) Cert.Pre_finite_inputs.S_ .f32 0x7F800000#32)))
          init hr hu j = 1#1) :
    ∀ i, IsReal (a i) := fun i =>
  isReal_of_abs_lt_inf (a i) (Host.reduce_andi_all _ init hr hu j h i)

theorem real_of_pre [Cert.Pre_finite_inputs.Facts]
    (a0 : FVec Ideal Cert.Pre_finite_inputs.S8x4096x256 .f32) (a1 : FVec Ideal Cert.Pre_finite_inputs.S256x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32) (a7 : IVec Cert.Pre_finite_inputs.S8 32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have hc := congrFun h ValueIdx.ix0
  unfold Cert.Pre_finite_inputs.fn Cert.Pre_finite_inputs.fn_part1 at hc
  dsimp only at hc
  simp only [andi_apply_eq_one] at hc
  obtain ⟨⟨⟨⟨⟨⟨h0, h1⟩, h2⟩, h3⟩, h4⟩, h5⟩, h6⟩ := hc
  exact ⟨real_of_all a0 _ _ _ _ _ h0, real_of_all a1 _ _ _ _ _ h1, real_of_all a2 _ _ _ _ _ h2,
    real_of_all a3 _ _ _ _ _ h3, real_of_all a4 _ _ _ _ _ h4, real_of_all a5 _ _ _ _ _ h5,
    real_of_all a6 _ _ _ _ _ h6⟩

end Cert.Ragged

end
-- ==== Proof.lean ====
/-
  Ragged attention without softmax, averaged over the padded query axis: a Pallas kernel against its jnp reference,
  equal over the extended reals under finite inputs.

  For each of the 8 padded sequences (4096 positions, 256 features) both programs form the three masked projections
  q, k, v (a row is zeroed where its position is not below the sequence's length word). The reference computes
  `(∑ p, ∑ p', (q_p · k_p') v_p'e) / 4096`. The kernel never forms the 4096 × 4096 scores: over four tiles of 1024
  rows it accumulates the column sums `∑ p, q_pf` and the matrix `∑ p', k_p'f v_p'e`, and at the last tile stores
  `(∑ f, (∑ p, q_pf)(∑ p', k_p'f v_p'e)) / 4096`. With every entry a real number the two are one number, by
  distributivity and an exchange of finite sums (Algebra.lean); on the extended reals that law fails at the
  infinities, which is where the precondition (every float input finite, read in Finite.lean) is used. The length
  words are arbitrary 32-bit integers: both programs compare positions against them by the same signed comparison.

  The kernel's frame is the generated one (its side condition on the prefetched table is void: no index map reads
  the table); its value is read off that frame: the pieces each control case leaves (KPieces.lean), the body's
  arithmetic at an index (KPayload.lean), the tiles as rows of the projections (KTiles.lean), the induction over the
  grid (KAccum.lean), the write-back, cover and final reshape (KFinal.lean, KRun.lean). The reference's value is its
  generated run read operation by operation (RefValue.lean).
-/
import proofs.«420189_j61933428416272_1_alg».proof.Defs
import proofs.«420189_j61933428416272_1_alg».proof.Proof.Gen.Kernel
import proofs.«420189_j61933428416272_1_alg».proof.Proof.Gen.Kernel.Skeleton
import proofs.«420189_j61933428416272_1_alg».proof.Proof.Gen.Kernel.Launch
import proofs.«420189_j61933428416272_1_alg».proof.Proof.Gen.Kernel.Points
import proofs.«420189_j61933428416272_1_alg».proof.Proof.Gen.Kernel.Frame
import proofs.«420189_j61933428416272_1_alg».proof.Proof.Gen.KernelIdeal
import proofs.«420189_j61933428416272_1_alg».proof.Proof.Gen.KernelIdeal.Skeleton
import proofs.«420189_j61933428416272_1_alg».proof.Proof.Gen.KernelIdeal.Launch
import proofs.«420189_j61933428416272_1_alg».proof.Proof.Gen.KernelIdeal.Points
import proofs.«420189_j61933428416272_1_alg».proof.Proof.Gen.KernelIdeal.Frame
import proofs.«420189_j61933428416272_1_alg».proof.Proof.Gen.ReferenceIdeal
import proofs.«420189_j61933428416272_1_alg».proof.Proof.Gen.Pre_finite_inputs
import proofs.«420189_j61933428416272_1_alg».proof.Proof.KRun
import proofs.«420189_j61933428416272_1_alg».proof.Proof.RefValue
import proofs.«420189_j61933428416272_1_alg».proof.Proof.Algebra
import proofs.«420189_j61933428416272_1_alg».proof.Proof.Finite
import Idealize.ShloMosaic.Adequacy
import Idealize.ShloMosaic.Init

noncomputable section

namespace Cert.Proof

open Idealize.ShloMosaic Idealize.SL.Sem

/-- The word-level kernel's frame: the generated one; no index map reads the prefetched table, so its side condition is void. -/
theorem frame_k : Cert.frame_Kernel := fun m ρ _ => Cert.Kernel.Gen.frame m ρ trivial

/-- The idealized kernel's frame, likewise. -/
theorem frame_ki : Cert.frame_KernelIdeal := fun m ρ _ => Cert.KernelIdeal.Gen.frame m ρ trivial

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel ends at the factored arrangement, the reference at the scores-first one, of arguments that agree; under
    finite inputs every entry of the three projections is real and the two arrangements are equal. -/
theorem algebraic : Cert.algebraic_KernelIdeal_ReferenceIdeal := by
  intro m ρ m' ρ' hpre hagree
  refine ⟨fun c => Cert.KernelIdeal.KVal.kres m c, Cert.KernelIdeal.KVal.run m ρ trivial, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7⟩ := hagree c
  rw [a0, a1, a2, a3, a4, a5, a6, a7]
  obtain ⟨r0, r1, r2, r3, r4, r5, r6⟩ := Cert.Ragged.real_of_pre _ _ _ _ _ _ _ _ (hpre c)
  exact (Cert.Ragged.factoredResult_eq_attnResult _ _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
